-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x32 : Shape := ⟨2, ![96, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128 .f32) (main_arg9 : FVec F S128 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x96 .f32) (main_arg1 : IVec S2x800000 32) (main_arg2 : FVec F S96x32 .f32) (main_arg3 : FVec F S32 .f32) (main_arg4 : FVec F S32x64 .f32) (main_arg5 : FVec F S64 .f32) (main_arg6 : FVec F S64x128 .f32) (main_arg7 : FVec F S128 .f32) (main_arg8 : FVec F S128 .f32) (main_arg9 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x32 .f32 := Host.absf main_arg2
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_v13 main_v16
-- ==== Kernel.lean ====
abbrev S50000x96 : Shape := ⟨2, ![50000, 96]⟩
abbrev S2x800000 : Shape := ⟨2, ![2, 800000]⟩
abbrev S96x32 : Shape := ⟨2, ![96, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x32 : Shape := ⟨2, ![1, 32]⟩
abbrev S1x64 : Shape := ⟨2, ![1, 64]⟩
abbrev S1x128 : Shape := ⟨2, ![1, 128]⟩
abbrev S50000x128 : Shape := ⟨2, ![50000, 128]⟩
abbrev S2x128 : Shape := ⟨2, ![2, 128]⟩
abbrev S5000x96 : Shape := ⟨2, ![5000, 96]⟩
abbrev S5000x128 : Shape := ⟨2, ![5000, 128]⟩
abbrev S5000x32 : Shape := ⟨2, ![5000, 32]⟩
abbrev S5000x64 : Shape := ⟨2, ![5000, 64]⟩

abbrev nBuf : Space → Nat
  | .hbm => 36
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S1x32, .f32⟩
  | .hbm, ⟨29, _⟩ => ⟨S1x64, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S50000x128, .f32⟩
  | .hbm, ⟨34, _⟩ => ⟨S2x128, .f32⟩
  | .hbm, ⟨35, _⟩ => ⟨S50000x128, .f32⟩
  | .local _ .vmem, ⟨0, _⟩ => ⟨S5000x96, .f32⟩
  | .local _ .vmem, ⟨1, _⟩ => ⟨S5000x96, .f32⟩
  | .local _ .vmem, ⟨2, _⟩ => ⟨S96x32, .f32⟩
  | .local _ .vmem, ⟨3, _⟩ => ⟨S1x32, .f32⟩
  | .local _ .vmem, ⟨4, _⟩ => ⟨S32x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2x128, .f32⟩
  | .local _ .vmem, ⟨11, _⟩ => ⟨S5000x128, .f32⟩
  | .local _ .vmem, ⟨12, _⟩ => ⟨S5000x128, .f32⟩
  | .local _ .vmem, ⟨13, _⟩ => ⟨S2x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S32_S1x32 : S32.ShapeCasts S1x32
  shapeCasts_S64_S1x64 : S64.ShapeCasts S1x64
  shapeCasts_S128_S1x128 : S128.ShapeCasts S1x128
  inb_S2x128_S2x128_0_0 : ∀ a, (![0, 0] : Fin 2 → Nat) a + S2x128.size a ≤ S2x128.size a
  h_S2x128 : 0 < S2x128.numel
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x32_S96x32_0_0 : ∀ a, (![0, 0] : Fin 2 → Nat) a + S96x32.size a ≤ S96x32.size a
  h_S96x32 : 0 < S96x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S2x128_S2x128 : S2x128.ShapeCasts S2x128
  concatenates_S1x128_S1x128_S2x128_d0 : Shape.Concatenates [S1x128, S1x128] S2x128 0
  slices_S2x128_o0_0_S1x128 : S2x128.Slices ![0, 0] S1x128
  slices_S2x128_o1_0_S1x128 : S2x128.Slices ![1, 0] S1x128
  shapeCasts_S5000x128_S5000x128 : S5000x128.ShapeCasts S5000x128
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x32_S5000x32_1_0_0_1_n_n_wf : DotDims.WF S5000x96 S96x32 S5000x32 [1] [0] [0] [1] [] []
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x32.size a ≤ S96x32.size a
  hwx0_1 : ∀ i : grid0.Coords, EltTy.bits .f32 = 32 ∨ (Rect.block (s := S96x32) S96x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128.size a ≤ S2x128.size a
  hwx0_8 : ∀ i : grid0.Coords, EltTy.bits .f32 = 32 ∨ (Rect.block (s := S2x128) S2x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x32_S5000x32_1_0_0_1_n_n : DotDims S5000x96 S96x32 S5000x32 where
  lhsContracting := [1]
  rhsContracting := [0]
  lhsNonContracting := [0]
  rhsNonContracting := [1]
  lhsBatch := []
  rhsBatch := []
  wf := dot_S5000x96_S96x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v14) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S2x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_1) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x32 : Shape := ⟨2, ![96, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x32 : Shape := ⟨2, ![50000, 32]⟩
abbrev S1x32 : Shape := ⟨2, ![1, 32]⟩
abbrev S50000x64 : Shape := ⟨2, ![50000, 64]⟩
abbrev S1x64 : Shape := ⟨2, ![1, 64]⟩
abbrev S50000x128 : Shape := ⟨2, ![50000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S50000x32, .f32⟩
  | .hbm, ⟨29, _⟩ => ⟨S1x32, .f32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S50000x32, .f32⟩
  | .hbm, ⟨34, _⟩ => ⟨S_, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000x32, .f32⟩
  | .hbm, ⟨39, _⟩ => ⟨S50000x32, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .i1⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x32_S50000x32_1_0_0_1_n_n_wf : DotDims.WF S50000x96 S96x32 S50000x32 [1] [0] [0] [1] [] []
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Spec.lean ====
/-
  The mathematics of this certificate, with no program in sight.

  A graph layer: every node's 96 features (already summed with its in-neighbours') go through three dense
  layers, the first two followed by the logistic function, the third by a leaky rectifier of slope f32(0.01);
  the 50000 × 128 result X is then normalised column by column: from each entry the column's mean is
  taken off, the difference is scaled by 1/√(variance + ε), by γ and shifted by β.

  The two programs differ in one place only: the variance of a column is taken either as the mean of the squares
  less the square of the mean (from the two column sums Σ X and Σ X²), or as the mean of the squared
  deviations from the mean. Over the reals these agree; on the extended reals they agree when every
  entry of the column is finite. An entry is finite whatever the node's features are, because the logistic
  function only takes values in [0, 1] (at ±∞ too), so the last layer is a finite sum of products of
  finite numbers as soon as its weights and bias are finite.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Ring.Finset
import Mathlib.Data.Fintype.BigOperators
import Mathlib.Tactic.Ring
import Mathlib.Tactic.NormNum

noncomputable section

namespace Cert.GinNorm

open Idealize.ShloMosaic

/-! ## The float literals the programs spell -/

/-- The node count, 50000.0. -/
def nTot : EReal := Ideal.ofBits .f32 0x47435000#32
/-- The stabiliser ε = f32(1e-5). -/
def epsB : EReal := Ideal.ofBits .f32 0x3727C5AC#32

theorem ofBits_one : Ideal.ofBits .f32 0x3F800000#32 = 1 := by
  simp [Ideal.ofBits, Ideal.ieee, -EReal.coe_mul]; norm_num

theorem nTot_eq : nTot = ((50000 : ℝ) : EReal) := by
  unfold nTot
  simp [Ideal.ofBits, Ideal.ieee, -EReal.coe_mul]; norm_num

/-- ε is a real number (which one does not matter). -/
theorem epsB_real : ∃ e : ℝ, epsB = (e : EReal) := by
  -- sign 0, exponent field 110, fraction 2606508: a normal number
  have h : epsB = (((10995116 : ℝ) * (2 : ℝ) ^ (-40 : ℤ) : ℝ) : EReal) := by
    unfold epsB
    simp [Ideal.ofBits, Ideal.ieee, -EReal.coe_mul]
  exact ⟨_, h⟩

/-- The rectifier's slope is a real number (which one does not matter). -/
theorem slope_real : ∃ s : ℝ, Ideal.ofBits .f32 0x3C23D70A#32 = (s : EReal) := by
  -- sign 0, exponent field 120, fraction 2348810: a normal number
  have h : Ideal.ofBits .f32 0x3C23D70A#32 = (((10737418 : ℝ) * (2 : ℝ) ^ (-30 : ℤ) : ℝ) : EReal) := by
    simp [Ideal.ofBits, Ideal.ieee, -EReal.coe_mul]
  exact ⟨_, h⟩

/-! ## One node through the three layers -/

/-- The leaky rectifier: z where z ≥ 0, slope · z elsewhere. -/
def lrelu (z : EReal) : EReal :=
  Scalar.select (Ideal.cmp .oge z (Ideal.ofBits .f32 0x00000000#32)) z (Ideal.ofBits .f32 0x3C23D70A#32 * z)

/-- Entry j of a node's activations, from its 96 features h. -/
def rowact (h : Fin 96 → EReal) (W1 : Fin 96 → Fin 32 → EReal) (b1 : Fin 32 → EReal)
    (W2 : Fin 32 → Fin 64 → EReal) (b2 : Fin 64 → EReal) (W3 : Fin 64 → Fin 128 → EReal) (b3 : Fin 128 → EReal)
    (j : Fin 128) : EReal :=
  lrelu ((∑ k : Fin 64,
            Ideal.logistic ((∑ l : Fin 32,
              Ideal.logistic ((∑ d : Fin 96, h d * W1 d l) + b1 l) * W2 l k) + b2 k) * W3 k j) + b3 j)

/-- The logistic function takes real values only, at ±∞ too (0 and 1 there). -/
theorem logistic_real (z : EReal) : ∃ x : ℝ, Ideal.logistic z = (x : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The rectifier of a real is a real. -/
theorem lrelu_real (x : ℝ) : ∃ y : ℝ, lrelu (x : EReal) = (y : EReal) := by
  obtain ⟨s, hs⟩ := slope_real
  unfold lrelu Scalar.select
  split
  · exact ⟨x, rfl⟩
  · exact ⟨s * x, by rw [hs, EReal.coe_mul]⟩

/-- The coercion of the reals into the extended reals commutes with finite sums. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A node's activations are finite when the last layer's weights and bias are, whatever its features. -/
theorem rowact_real (h : Fin 96 → EReal) (W1 : Fin 96 → Fin 32 → EReal) (b1 : Fin 32 → EReal)
    (W2 : Fin 32 → Fin 64 → EReal) (b2 : Fin 64 → EReal) (W3 : Fin 64 → Fin 128 → EReal) (b3 : Fin 128 → EReal)
    (hW3 : ∀ k j, ∃ w : ℝ, W3 k j = (w : EReal)) (hb3 : ∀ j, ∃ w : ℝ, b3 j = (w : EReal)) (j : Fin 128) :
    ∃ x : ℝ, rowact h W1 b1 W2 b2 W3 b3 j = (x : EReal) := by
  choose w hw using hW3
  obtain ⟨b, hb⟩ := hb3 j
  -- whatever real values the second layer's outputs take, the last layer is a real, and so is its rectifier
  have key : ∀ F : Fin 64 → EReal, (∀ k, ∃ y : ℝ, F k = (y : EReal)) →
      ∃ x : ℝ, lrelu ((∑ k : Fin 64, F k * W3 k j) + b3 j) = (x : EReal) := by
    intro F hF
    choose y hy using hF
    have e : (∑ k : Fin 64, F k * W3 k j) + b3 j = (((∑ k : Fin 64, y k * w k j) + b : ℝ) : EReal) := by
      rw [EReal.coe_add, coe_sum, hb]
      congr 1
      exact Finset.sum_congr rfl (fun k _ => by rw [hy k, hw k j, EReal.coe_mul])
    rw [e]
    exact lrelu_real _
  unfold rowact
  exact key _ (fun k => logistic_real _)

/-! ## A column's sums, gathered 5000 rows at a time -/

/-- The sum over the rows below a bound. -/
def sumBelow (f : Fin 50000 → EReal) (n : ℕ) : EReal := ∑ r ∈ Finset.univ.filter (fun r : Fin 50000 => r.val < n), f r

theorem sumBelow_zero (f : Fin 50000 → EReal) : sumBelow f 0 = 0 := by
  unfold sumBelow
  rw [Finset.filter_false_of_mem (fun r _ => Nat.not_lt_zero _), Finset.sum_empty]

/-- One more tile of 5000 rows. -/
theorem sumBelow_succ (f : Fin 50000 → EReal) (t : ℕ) (ht : t < 10) :
    sumBelow f (5000 * (t + 1)) = sumBelow f (5000 * t) + ∑ p : Fin 5000, f ⟨5000 * t + p.val, by omega⟩ := by
  unfold sumBelow
  -- the rows below 5000 (t + 1) are the rows below 5000 t and the rows of tile t
  have hsplit : Finset.univ.filter (fun r : Fin 50000 => r.val < 5000 * (t + 1))
      = Finset.univ.filter (fun r : Fin 50000 => r.val < 5000 * t)
        ∪ Finset.univ.filter (fun r : Fin 50000 => 5000 * t ≤ r.val ∧ r.val < 5000 * (t + 1)) := by
    ext r
    simp only [Finset.mem_filter, Finset.mem_univ, true_and, Finset.mem_union]
    omega
  have hdisj : Disjoint (Finset.univ.filter (fun r : Fin 50000 => r.val < 5000 * t))
      (Finset.univ.filter (fun r : Fin 50000 => 5000 * t ≤ r.val ∧ r.val < 5000 * (t + 1))) := by
    rw [Finset.disjoint_filter]
    intro r _ h1 h2
    omega
  -- tile t's rows, counted by their place p in the tile
  have htile : ∑ r ∈ Finset.univ.filter (fun r : Fin 50000 => 5000 * t ≤ r.val ∧ r.val < 5000 * (t + 1)), f r
      = ∑ p : Fin 5000, f ⟨5000 * t + p.val, by omega⟩ := by
    symm
    refine Finset.sum_bij (fun p _ => (⟨5000 * t + p.val, by omega⟩ : Fin 50000)) ?_ ?_ ?_ ?_
    · intro p _
      simp only [Finset.mem_filter, Finset.mem_univ, true_and]
      omega
    · intro p _ q _ hpq
      have hv := congrArg Fin.val hpq
      simp only at hv
      exact Fin.ext (by omega)
    · intro r hr
      simp only [Finset.mem_filter, Finset.mem_univ, true_and] at hr
      refine ⟨⟨r.val - 5000 * t, by omega⟩, Finset.mem_univ _, Fin.ext ?_⟩
      simp only
      omega
    · intro p _
      rfl
  rw [hsplit, Finset.sum_union hdisj, htile]

theorem sumBelow_all (f : Fin 50000 → EReal) : sumBelow f 50000 = ∑ r, f r := by
  unfold sumBelow
  rw [Finset.filter_true_of_mem (fun r _ => r.isLt)]

/-! ## The normalisation, in its two spellings -/

/-- From the column's two sums s = Σ X and q = Σ X²: the variance as q/n − (s/n)². -/
def normOf (s q x g b : EReal) : EReal :=
  (x - Ideal.div s nTot) * Ideal.rsqrt (Ideal.div q nTot - Ideal.div s nTot * Ideal.div s nTot + epsB) * g + b

/-- From the column itself: the variance as the mean of the squared deviations. -/
def normRef (X : Fin 50000 → EReal) (x g b : EReal) : EReal :=
  (x - Ideal.div (∑ r, X r) nTot)
    * Ideal.rsqrt (Ideal.div (∑ r, (X r - Ideal.div (∑ r', X r') nTot) * (X r - Ideal.div (∑ r', X r') nTot)) nTot + epsB) * g + b

/-- THE LAW: on a column of finite entries the two spellings of the variance agree, hence the two normalisations. -/
theorem normOf_eq_normRef (X : Fin 50000 → EReal) (hX : ∀ r, ∃ x : ℝ, X r = (x : EReal)) (x g b : EReal) :
    normOf (∑ r, X r) (∑ r, X r * X r) x g b = normRef X x g b := by
  choose xs hxs using hX
  have hn : (50000 : ℝ) ≠ 0 := by norm_num
  -- the column's sum, its sum of squares and its mean are (coercions of) reals
  have hS : ∑ r, X r = ((∑ r, xs r : ℝ) : EReal) := by
    rw [coe_sum]
    exact Finset.sum_congr rfl (fun r _ => hxs r)
  have hQ : ∑ r, X r * X r = ((∑ r, xs r * xs r : ℝ) : EReal) := by
    rw [coe_sum]
    exact Finset.sum_congr rfl (fun r _ => by rw [hxs r, EReal.coe_mul])
  obtain ⟨μ, hμ⟩ : ∃ μ : ℝ, μ = (∑ r, xs r) * (1 / 50000) := ⟨_, rfl⟩
  have hmean : Ideal.div (∑ r, X r) nTot = (μ : EReal) := by
    rw [nTot_eq, Ideal.div_coe hn, hS, ← EReal.coe_mul, hμ]
  -- so is the sum of the squared deviations
  have hD : ∑ r, (X r - (μ : EReal)) * (X r - (μ : EReal)) = ((∑ r, (xs r - μ) * (xs r - μ) : ℝ) : EReal) := by
    rw [coe_sum]
    exact Finset.sum_congr rfl (fun r _ => by rw [hxs r, ← EReal.coe_sub, ← EReal.coe_mul])
  -- over the reals: Σ (x − μ)² = Σ x² − 2 μ Σ x + n μ², with n = 50000 the number of rows
  have hexp : ∑ r, (xs r - μ) * (xs r - μ) = (∑ r, xs r * xs r) - 2 * μ * (∑ r, xs r) + 50000 * (μ * μ) := by
    have hterm : ∀ r, (xs r - μ) * (xs r - μ) = xs r * xs r - 2 * μ * xs r + μ * μ := fun r => by ring
    simp only [hterm]
    rw [Finset.sum_add_distrib, Finset.sum_sub_distrib, ← Finset.mul_sum, Finset.sum_const, Finset.card_univ,
      Fintype.card_fin, nsmul_eq_mul]
    norm_num
  have hvar : Ideal.div (∑ r, X r * X r) nTot - Ideal.div (∑ r, X r) nTot * Ideal.div (∑ r, X r) nTot
      = Ideal.div (∑ r, (X r - Ideal.div (∑ r', X r') nTot) * (X r - Ideal.div (∑ r', X r') nTot)) nTot := by
    rw [hmean, hD, hQ, nTot_eq, Ideal.div_coe hn, Ideal.div_coe hn, ← EReal.coe_mul, ← EReal.coe_mul, ← EReal.coe_mul,
      ← EReal.coe_sub, EReal.coe_eq_coe_iff, hexp, hμ]
    ring
  unfold normOf normRef
  rw [hvar]

/-! ## The whole arrays -/

/-- A matrix, a vector: arrays over the index types the programs use. -/
abbrev Mat (a b : Nat) : Type := (⟨2, ![a, b]⟩ : Shape).Idx → EReal
abbrev Vect (a : Nat) : Type := (⟨1, ![a]⟩ : Shape).Idx → EReal

/-- Node r's activation j, from the feature array and the layers' weights and biases. -/
def acts (h : Mat 50000 96) (W1 : Mat 96 32) (b1 : Vect 32) (W2 : Mat 32 64) (b2 : Vect 64) (W3 : Mat 64 128) (b3 : Vect 128)
    (r : Fin 50000) (j : Fin 128) : EReal :=
  rowact (fun d => h (ValueIdx.ix2 r d)) (fun d l => W1 (ValueIdx.ix2 d l)) (fun l => b1 (ValueIdx.ix1 l))
    (fun l k => W2 (ValueIdx.ix2 l k)) (fun k => b2 (ValueIdx.ix1 k)) (fun k j' => W3 (ValueIdx.ix2 k j')) (fun j' => b3 (ValueIdx.ix1 j')) j

/-- The result with each column's variance taken from its two sums. -/
def outKer (h : Mat 50000 96) (W1 : Mat 96 32) (b1 : Vect 32) (W2 : Mat 32 64) (b2 : Vect 64) (W3 : Mat 64 128) (b3 : Vect 128)
    (g bt : Vect 128) : Mat 50000 128 := fun i =>
  normOf (∑ r, acts h W1 b1 W2 b2 W3 b3 r (i 1)) (∑ r, acts h W1 b1 W2 b2 W3 b3 r (i 1) * acts h W1 b1 W2 b2 W3 b3 r (i 1))
    (acts h W1 b1 W2 b2 W3 b3 (i 0) (i 1)) (g (ValueIdx.ix1 (i 1))) (bt (ValueIdx.ix1 (i 1)))

/-- The result with each column's variance taken as the mean squared deviation. -/
def outRef (h : Mat 50000 96) (W1 : Mat 96 32) (b1 : Vect 32) (W2 : Mat 32 64) (b2 : Vect 64) (W3 : Mat 64 128) (b3 : Vect 128)
    (g bt : Vect 128) : Mat 50000 128 := fun i =>
  normRef (fun r => acts h W1 b1 W2 b2 W3 b3 r (i 1)) (acts h W1 b1 W2 b2 W3 b3 (i 0) (i 1)) (g (ValueIdx.ix1 (i 1))) (bt (ValueIdx.ix1 (i 1)))

/-- With the last layer's weights and bias finite the two results are one array, whatever the features are. -/
theorem outKer_eq_outRef (h : Mat 50000 96) (W1 : Mat 96 32) (b1 : Vect 32) (W2 : Mat 32 64) (b2 : Vect 64) (W3 : Mat 64 128) (b3 : Vect 128)
    (g bt : Vect 128) (hW3 : ∀ i, ∃ w : ℝ, W3 i = (w : EReal)) (hb3 : ∀ i, ∃ w : ℝ, b3 i = (w : EReal)) :
    outKer h W1 b1 W2 b2 W3 b3 g bt = outRef h W1 b1 W2 b2 W3 b3 g bt := by
  funext i
  unfold outKer outRef
  -- every entry of the column is finite, so THE LAW applies to it
  refine normOf_eq_normRef (fun r => acts h W1 b1 W2 b2 W3 b3 r (i 1)) (fun r => ?_) _ _ _
  unfold acts
  exact rowact_real _ _ _ _ _ _ _ (fun k j => hW3 _) (fun j => hb3 _) _

end Cert.GinNorm

end
-- ==== Proof.Tile.lean ====
/-
  The first kernel's arithmetic at one entry.

  A tile is 5000 nodes. Entry (p, j) of the tile's activations is node p's features through the three dense
  layers (the matrix products are sums over the contracted axis; a change of float format is the identity on
  the extended reals) and the rectifier; the running statistics get, on row 0, the tile's column sums added and,
  on row 1, the column sums of the squares; a fresh statistics block is zero.
-/
import proofs.«149962_j74019466379556_1_alg».proof.Proof.Gen.KernelIdeal.Skeleton
import proofs.«149962_j74019466379556_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx

/-! ### The 5000 × 96 by 96 × 32 product -/

theorem mm1_lhs_0 (i : S5000x32.Idx) (q : dot_S5000x96_S96x32_S5000x32_1_0_0_1_n_n.contr.Idx) :
    (dot_S5000x96_S96x32_S5000x32_1_0_0_1_n_n.lhsIdx i q 0).val = (i 0).val := by
  unfold DotDims.lhsIdx
  rw [dif_neg (show ¬(0 : Fin S5000x96.rank) ∈ dot_S5000x96_S96x32_S5000x32_1_0_0_1_n_n.lhsBatch by decide), dif_pos (show (0 : Fin S5000x96.rank) ∈ dot_S5000x96_S96x32_S5000x32_1_0_0_1_n_n.lhsNonContracting by decide)]
  rfl
theorem mm1_lhs_1 (i : S5000x32.Idx) (q : dot_S5000x96_S96x32_S5000x32_1_0_0_1_n_n.contr.Idx) :
    (dot_S5000x96_S96x32_S5000x32_1_0_0_1_n_n.lhsIdx i q 1).val = (q ⟨0, by decide⟩).val :=
  dot_S5000x96_S96x32_S5000x32_1_0_0_1_n_n.lhsIdx_val_of_single rfl i q
theorem mm1_rhs_0 (i : S5000x32.Idx) (q : dot_S5000x96_S96x32_S5000x32_1_0_0_1_n_n.contr.Idx) :
    (dot_S5000x96_S96x32_S5000x32_1_0_0_1_n_n.rhsIdx i q 0).val = (q ⟨0, by decide⟩).val :=
  dot_S5000x96_S96x32_S5000x32_1_0_0_1_n_n.rhsIdx_val_of_single rfl i q
theorem mm1_rhs_1 (i : S5000x32.Idx) (q : dot_S5000x96_S96x32_S5000x32_1_0_0_1_n_n.contr.Idx) :
    (dot_S5000x96_S96x32_S5000x32_1_0_0_1_n_n.rhsIdx i q 1).val = (i 1).val := by
  unfold DotDims.rhsIdx
  rw [dif_neg (show ¬(1 : Fin S96x32.rank) ∈ dot_S5000x96_S96x32_S5000x32_1_0_0_1_n_n.rhsBatch by decide), dif_pos (show (1 : Fin S96x32.rank) ∈ dot_S5000x96_S96x32_S5000x32_1_0_0_1_n_n.rhsNonContracting by decide)]
  rfl

/-- The product from a zero accumulator, read at (p, c): the sum over the contracted axis. -/
theorem mm1_apply {φ₁ φ₂ : FTy} (a : FVec Ideal S5000x96 φ₁) (b : FVec Ideal S96x32 φ₂) (p : Fin 5000) (c : Fin 32) :
    matmul dot_S5000x96_S96x32_S5000x32_1_0_0_1_n_n none a b (constant (F := Ideal) S5000x32 .f32 0x00000000#32) (ix2 p c)
      = ∑ k : Fin 96, a (ix2 p k) * b (ix2 k c) := by
  simp only [matmul]
  rw [Ideal.matmul_constant_zero_apply, ← Equiv.sum_comp (ValueIdx.contrEquiv1 dot_S5000x96_S96x32_S5000x32_1_0_0_1_n_n 96 rfl rfl).symm]
  refine Finset.sum_congr rfl fun k _ => ?_
  have hk := ValueIdx.contrEquiv1_symm_val dot_S5000x96_S96x32_S5000x32_1_0_0_1_n_n 96 rfl rfl k
  have el : dot_S5000x96_S96x32_S5000x32_1_0_0_1_n_n.lhsIdx (ix2 p c) ((ValueIdx.contrEquiv1 dot_S5000x96_S96x32_S5000x32_1_0_0_1_n_n 96 rfl rfl).symm k) = ix2 p k := funext fun ax => Fin.ext (by
    match ax with
    | ⟨0, _⟩ => exact mm1_lhs_0 _ _
    | ⟨1, _⟩ => exact (mm1_lhs_1 _ _).trans hk)
  have er : dot_S5000x96_S96x32_S5000x32_1_0_0_1_n_n.rhsIdx (ix2 p c) ((ValueIdx.contrEquiv1 dot_S5000x96_S96x32_S5000x32_1_0_0_1_n_n 96 rfl rfl).symm k) = ix2 k c := funext fun ax => Fin.ext (by
    match ax with
    | ⟨0, _⟩ => exact (mm1_rhs_0 _ _).trans hk
    | ⟨1, _⟩ => exact mm1_rhs_1 _ _)
  rw [el, er]

/-! ### The 5000 × 32 by 32 × 64 product -/

theorem mm2_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem mm2_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem mm2_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem mm2_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product from a zero accumulator, read at (p, c): the sum over the contracted axis. -/
theorem mm2_apply {φ₁ φ₂ : FTy} (a : FVec Ideal S5000x32 φ₁) (b : FVec Ideal S32x64 φ₂) (p : Fin 5000) (c : Fin 64) :
    matmul dot_S5000x32_S32x64_S5000x64_1_0_0_1_n_n none a b (constant (F := Ideal) S5000x64 .f32 0x00000000#32) (ix2 p c)
      = ∑ k : Fin 32, a (ix2 p k) * b (ix2 k c) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p c) ((ValueIdx.contrEquiv1 dot_S5000x32_S32x64_S5000x64_1_0_0_1_n_n 32 rfl rfl).symm k) = ix2 p k := funext fun ax => Fin.ext (by
    match ax with
    | ⟨0, _⟩ => exact mm2_lhs_0 _ _
    | ⟨1, _⟩ => exact (mm2_lhs_1 _ _).trans hk)
  have er : dot_S5000x32_S32x64_S5000x64_1_0_0_1_n_n.rhsIdx (ix2 p c) ((ValueIdx.contrEquiv1 dot_S5000x32_S32x64_S5000x64_1_0_0_1_n_n 32 rfl rfl).symm k) = ix2 k c := funext fun ax => Fin.ext (by
    match ax with
    | ⟨0, _⟩ => exact (mm2_rhs_0 _ _).trans hk
    | ⟨1, _⟩ => exact mm2_rhs_1 _ _)
  rw [el, er]

/-! ### The 5000 × 64 by 64 × 128 product -/

theorem mm3_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem mm3_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem mm3_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem mm3_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product from a zero accumulator, read at (p, c): the sum over the contracted axis. -/
theorem mm3_apply {φ₁ φ₂ : FTy} (a : FVec Ideal S5000x64 φ₁) (b : FVec Ideal S64x128 φ₂) (p : Fin 5000) (c : Fin 128) :
    matmul dot_S5000x64_S64x128_S5000x128_1_0_0_1_n_n none a b (constant (F := Ideal) S5000x128 .f32 0x00000000#32) (ix2 p c)
      = ∑ k : Fin 64, a (ix2 p k) * b (ix2 k c) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p c) ((ValueIdx.contrEquiv1 dot_S5000x64_S64x128_S5000x128_1_0_0_1_n_n 64 rfl rfl).symm k) = ix2 p k := funext fun ax => Fin.ext (by
    match ax with
    | ⟨0, _⟩ => exact mm3_lhs_0 _ _
    | ⟨1, _⟩ => exact (mm3_lhs_1 _ _).trans hk)
  have er : dot_S5000x64_S64x128_S5000x128_1_0_0_1_n_n.rhsIdx (ix2 p c) ((ValueIdx.contrEquiv1 dot_S5000x64_S64x128_S5000x128_1_0_0_1_n_n 64 rfl rfl).symm k) = ix2 k c := funext fun ax => Fin.ext (by
    match ax with
    | ⟨0, _⟩ => exact (mm3_rhs_0 _ _).trans hk
    | ⟨1, _⟩ => exact mm3_rhs_1 _ _)
  rw [el, er]

/-! ### Pointwise and layout readings -/

/-- The logistic of a vector, read at an index, is the logistic of the entry. -/
theorem logistic_apply {s : Shape} {φ : FTy} (a : FVec Ideal s φ) (i : s.Idx) : logistic a i = Ideal.logistic (a i) := rfl

/-- A comparison of extended reals is the linear order's. -/
theorem cmpf_ideal {φ : FTy} (c : CmpFPredicate) (x y : Ideal φ) : FloatOps.cmpf c x y = Ideal.cmp c x y := rfl

/-- Entry (p, j) of a tile's activations is node p's features through the layers. The biases come as 1 × n blocks. -/
theorem acts_apply (x0 : Vec Ideal S5000x96 .f32) (x1 : Vec Ideal S96x32 .f32) (x2 : Vec Ideal S1x32 .f32)
    (x3 : Vec Ideal S32x64 .f32) (x4 : Vec Ideal S1x64 .f32) (x5 : Vec Ideal S64x128 .f32) (x6 : Vec Ideal S1x128 .f32)
    (p : Fin 5000) (j : Fin 128) :
    k0_pay3 (F := Ideal) x0 x1 x2 x3 x4 x5 x6 (ix2 p j)
      = GinNorm.rowact (fun d => x0 (ix2 p d)) (fun d l => x1 (ix2 d l)) (fun l => x2 (ix2 (0 : Fin 1) l))
          (fun l k => x3 (ix2 l k)) (fun k => x4 (ix2 (0 : Fin 1) k)) (fun k j' => x5 (ix2 k j')) (fun j' => x6 (ix2 (0 : Fin 1) j')) j := by
  unfold k0_pay3 GinNorm.rowact GinNorm.lrelu
  -- the rectifier, the bias rows and the changes of format are read entrywise; each product is its sum
  simp only [select_apply, cmpf_apply, mulf_apply, addf_apply, broadcast_apply, logistic_apply, mm1_apply, mm2_apply, mm3_apply,
    truncf_apply, shapeCast_self, broadcastTo_1b_ab_apply, cmpf_ideal, Ideal.ofBits_def]

/-! ### The column sums and the two stacked rows -/

/-- A sum over the rows of a tile, read at column j. -/
theorem colsum_apply (v : FVec Ideal S5000x128 .f32) (hacc : (0x00000000#32 : BitVec 32) = 0x00000000#32) (j : Fin 128) :
    multiReduction (F := Ideal) .add [0] S128 v 0x00000000#32 reduces_S5000x128_S128 (.inl rfl) hacc (ix1 j)
      = ∑ p : Fin 5000, v (ix2 p j) := by
  refine (Ideal.multiReduction_add_single v 0x00000000#32 reduces_S5000x128_S128 (.inl rfl) hacc (ix1 j)).trans ?_
  refine Finset.sum_congr rfl fun k _ => congrArg v (funext fun ax => Fin.ext ?_)
  match ax with
  | ⟨0, _⟩ => rfl
  | ⟨1, _⟩ => rfl

/-- Two 1 × 128 rows stacked: row 0 of the stack is the first. -/
theorem stack_apply_left {α : Type} (x₁ x₂ : S1x128.Idx → α) (a : Fin 2) (ha : a.val = 0) (j : Fin 128) :
    concatenate S2x128 0 [⟨S1x128, x₁⟩, ⟨S1x128, x₂⟩] concatenates_S1x128_S1x128_S2x128_d0 (ix2 a j) = x₁ (ix2 (0 : Fin 1) j) :=
  concatenate_pair_apply_left 0 x₁ x₂ concatenates_S1x128_S1x128_S2x128_d0 (ix2 a j) rfl (ix2 (0 : Fin 1) j) (fun b => by
    match b with
    | ⟨0, _⟩ => exact ha.symm
    | ⟨1, _⟩ => rfl)

/-- Row 1 of the stack is the second. -/
theorem stack_apply_right {α : Type} (x₁ x₂ : S1x128.Idx → α) (a : Fin 2) (ha : a.val = 1) (j : Fin 128) :
    concatenate S2x128 0 [⟨S1x128, x₁⟩, ⟨S1x128, x₂⟩] concatenates_S1x128_S1x128_S2x128_d0 (ix2 a j) = x₂ (ix2 (0 : Fin 1) j) :=
  concatenate_pair_apply_right 0 x₁ x₂ concatenates_S1x128_S1x128_S2x128_d0 (ix2 a j) rfl rfl (ix2 (0 : Fin 1) j) (fun b hb => by
    match b, hb with
    | ⟨0, _⟩, hb => exact absurd rfl hb
    | ⟨1, _⟩, _ => rfl) ha.symm

/-- The statistics after a tile: what they were plus, on row 0, the tile's column sums and, on row 1, the column sums
    of its squares. -/
theorem stats_apply (v35 : FVec Ideal S5000x128 .f32) (v42 : Vec Ideal S2x128 .f32) (a : Fin 2) (j : Fin 128) :
    k0_pay1 (F := Ideal) v35 v42 (ix2 a j)
      = v42 (ix2 a j) + (if a.val = 0 then ∑ p : Fin 5000, v35 (ix2 p j) else ∑ p : Fin 5000, v35 (ix2 p j) * v35 (ix2 p j)) := by
  unfold k0_pay1
  by_cases ha : a.val = 0
  · rw [if_pos ha]
    simp only [addf_apply, shapeCast_self, stack_apply_left _ _ a ha, shapeCast_a_1a_apply]
    exact congrArg (v42 (ix2 a j) + ·) (colsum_apply v35 _ j)
  · rw [if_neg ha]
    have ha1 : a.val = 1 := by omega
    simp only [addf_apply, shapeCast_self, stack_apply_right _ _ a ha1, shapeCast_a_1a_apply]
    exact congrArg (v42 (ix2 a j) + ·) (colsum_apply (mulf v35 v35) _ j)

/-- A fresh statistics block is zero. -/
theorem fresh_apply (i : S2x128.Idx) : (k0_pay2 (F := Ideal)) i = 0 := by
  unfold k0_pay2
  exact Ideal.ofBits_zero_f32

end Cert.KernelIdeal.Tile

end
-- ==== Proof.Pieces.lean ====
/-
  What the first kernel's body leaves in its two output blocks, in each of its two cases.

  At the first grid point the body first clears the statistics block, so the later read of it sees zeros; at every
  other point the block still holds what the point before left. In both cases the activations block is stored
  whole, once, and the statistics block is stored whole last: each block's final contents are the last store's
  value, a pure function of the blocks the body loaded.
-/
import proofs.«149962_j74019466379556_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every whole-block load and store here: zero on both axes. -/
private theorem hz : (![0, 0] : Fin 2 → Nat) = fun _ => 0 := funext fun a => by fin_cases a <;> rfl

/-- First point: the activations block is the tile's activations. -/
theorem acts_first (c : Dev nD) (i : grid0.Coords) (arg1 : Memref sig .tc .vmem S5000x96 .f32) (harg1 : arg1.IsWhole) (arg2 : Memref sig .tc .vmem S96x32 .f32) (harg2 : arg2.IsWhole) (arg3 : Memref sig .tc .vmem S1x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (hc0 : cond0_0 i) (x0 : Vec F S5000x96 .f32) (x1 : Vec F S96x32 .f32) (x2 : Vec F S1x32 .f32) (x3 : Vec F S32x64 .f32) (x4 : Vec F S1x64 .f32) (x5 : Vec F S64x128 .f32) (x6 : Vec F S1x128 .f32) :
    out0_A_7 c i arg1 harg1 arg2 harg2 arg3 harg3 arg4 harg4 arg5 harg5 arg6 harg6 arg7 harg7 arg8 harg8 arg9 harg9 hc0 x0 x1 x2 x3 x4 x5 x6 = k0_pay3 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  -- one store of the whole block: the block is that store's value
  rw [View.canon_unit_zero hz]
  -- each loaded operand is the whole input block it was loaded from
  simp only [View.readAt_eq_ld, harg1.read_unread, harg2.read_unread, harg3.read_unread, harg4.read_unread, harg5.read_unread, harg6.read_unread, harg7.read_unread, View.ld_unit_zero (S := S5000x96) hz, View.ld_unit_zero (S := S96x32) hz, View.ld_unit_zero (S := S1x32) hz, View.ld_unit_zero (S := S32x64) hz, View.ld_unit_zero (S := S1x64) hz, View.ld_unit_zero (S := S64x128) hz, View.ld_unit_zero (S := S1x128) hz]

/-- First point: the statistics block is the tile's sums over a cleared block. -/
theorem stats_first (c : Dev nD) (i : grid0.Coords) (arg1 : Memref sig .tc .vmem S5000x96 .f32) (harg1 : arg1.IsWhole) (arg2 : Memref sig .tc .vmem S96x32 .f32) (harg2 : arg2.IsWhole) (arg3 : Memref sig .tc .vmem S1x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (hc0 : cond0_0 i) (x0 : Vec F S5000x96 .f32) (x1 : Vec F S96x32 .f32) (x2 : Vec F S1x32 .f32) (x3 : Vec F S32x64 .f32) (x4 : Vec F S1x64 .f32) (x5 : Vec F S64x128 .f32) (x6 : Vec F S1x128 .f32) :
    out0_A_8 c i arg1 harg1 arg2 harg2 arg3 harg3 arg4 harg4 arg5 harg5 arg6 harg6 arg7 harg7 arg8 harg8 arg9 harg9 hc0 x0 x1 x2 x3 x4 x5 x6 = k0_pay1 (k0_pay3 x0 x1 x2 x3 x4 x5 x6) (k0_pay2 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  -- two stores of the whole block: the later one decides, and what it read back is the clearing store's value
  rw [View.canon_cons_unit_zero (S := S2x128) hz, View.readCov_unit_zero (S := S2x128) _ hz]
  simp only [View.readAt_eq_ld, harg1.read_unread, harg2.read_unread, harg3.read_unread, harg4.read_unread, harg5.read_unread, harg6.read_unread, harg7.read_unread, View.ld_unit_zero (S := S5000x96) hz, View.ld_unit_zero (S := S96x32) hz, View.ld_unit_zero (S := S1x32) hz, View.ld_unit_zero (S := S32x64) hz, View.ld_unit_zero (S := S1x64) hz, View.ld_unit_zero (S := S64x128) hz, View.ld_unit_zero (S := S1x128) hz]

/-- Later points: the activations block is the tile's activations. -/
theorem acts_later (c : Dev nD) (i : grid0.Coords) (arg1 : Memref sig .tc .vmem S5000x96 .f32) (harg1 : arg1.IsWhole) (arg2 : Memref sig .tc .vmem S96x32 .f32) (harg2 : arg2.IsWhole) (arg3 : Memref sig .tc .vmem S1x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (hc0 : ¬cond0_0 i) (x0 : Vec F S5000x96 .f32) (x1 : Vec F S96x32 .f32) (x2 : Vec F S1x32 .f32) (x3 : Vec F S32x64 .f32) (x4 : Vec F S1x64 .f32) (x5 : Vec F S64x128 .f32) (x6 : Vec F S1x128 .f32) (xo8 : Vec F S2x128 .f32) :
    out0_B_7 c i arg1 harg1 arg2 harg2 arg3 harg3 arg4 harg4 arg5 harg5 arg6 harg6 arg7 harg7 arg8 harg8 arg9 harg9 hc0 x0 x1 x2 x3 x4 x5 x6 xo8 = k0_pay3 x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S5000x96) hz, View.ld_unit_zero (S := S96x32) hz, View.ld_unit_zero (S := S1x32) hz, View.ld_unit_zero (S := S32x64) hz, View.ld_unit_zero (S := S1x64) hz, View.ld_unit_zero (S := S64x128) hz, View.ld_unit_zero (S := S1x128) hz]

/-- Later points: the statistics block is the tile's sums over what the block held before. -/
theorem stats_later (c : Dev nD) (i : grid0.Coords) (arg1 : Memref sig .tc .vmem S5000x96 .f32) (harg1 : arg1.IsWhole) (arg2 : Memref sig .tc .vmem S96x32 .f32) (harg2 : arg2.IsWhole) (arg3 : Memref sig .tc .vmem S1x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (hc0 : ¬cond0_0 i) (x0 : Vec F S5000x96 .f32) (x1 : Vec F S96x32 .f32) (x2 : Vec F S1x32 .f32) (x3 : Vec F S32x64 .f32) (x4 : Vec F S1x64 .f32) (x5 : Vec F S64x128 .f32) (x6 : Vec F S1x128 .f32) (xo8 : Vec F S2x128 .f32) :
    out0_B_8 c i arg1 harg1 arg2 harg2 arg3 harg3 arg4 harg4 arg5 harg5 arg6 harg6 arg7 harg7 arg8 harg8 arg9 harg9 hc0 x0 x1 x2 x3 x4 x5 x6 xo8 = k0_pay1 (k0_pay3 x0 x1 x2 x3 x4 x5 x6) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  -- one store of the whole block, over a value loaded from the block as the point found it
  rw [View.canon_unit_zero hz]
  simp only [View.readAt_eq_ld, harg1.read_unread, harg2.read_unread, harg3.read_unread, harg4.read_unread, harg5.read_unread, harg6.read_unread, harg7.read_unread, View.ld_unit_zero (S := S5000x96) hz, View.ld_unit_zero (S := S96x32) hz, View.ld_unit_zero (S := S1x32) hz, View.ld_unit_zero (S := S32x64) hz, View.ld_unit_zero (S := S1x64) hz, View.ld_unit_zero (S := S64x128) hz, View.ld_unit_zero (S := S1x128) hz, harg9.read_unread, View.ld_unit_zero (S := S2x128) hz]

end Cert.KernelIdeal.Pieces

end
-- ==== Proof.Stage1.lean ====
/-
  The first region's two arrays after its ten grid points.

  Point t works on the tile of nodes 5000·t … 5000·t + 4999: its activations block is those nodes' activations, and
  the statistics block, cleared at point 0 and kept between points, holds after point t the column sums (row 0) and
  the column sums of squares (row 1) over the nodes below 5000·(t + 1). The activations blocks tile their array; the
  statistics block is written back once, after the last point, with the sums over all 50000 nodes.
-/
import proofs.«149962_j74019466379556_1_alg».proof.Proof.Gen.KernelIdeal.Frame
import proofs.«149962_j74019466379556_1_alg».proof.Proof.Spec
import proofs.«149962_j74019466379556_1_alg».proof.Proof.Tile
import proofs.«149962_j74019466379556_1_alg».proof.Proof.Pieces
import Idealize.ShloMosaic.Lib.ValueIdx
import Idealize.ShloMosaic.Lib.Pipeline.Value

set_option maxRecDepth 16384

noncomputable section

namespace Cert.KernelIdeal.Stage1

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered
variable (V : (c : Dev nD) → (b : Ref sig .tc) → Buf (Elt Ideal) ((c : Thread nD τ).loc b))

/-- Node r's activation j, from the contents the region is entered with: the feature array, the three weight matrices,
    and the three biases as 1 × n arrays. -/
def acts (c : Dev nD) (r : Fin 50000) (j : Fin 128) : EReal :=
  GinNorm.rowact (fun d => V c main_v14 (ix2 r d)) (fun d l => V c main_arg2 (ix2 d l)) (fun l => V c main_v15 (ix2 (0 : Fin 1) l))
    (fun l k => V c main_arg4 (ix2 l k)) (fun k => V c main_v16 (ix2 (0 : Fin 1) k)) (fun k j' => V c main_arg6 (ix2 k j'))
    (fun j' => V c main_v17 (ix2 (0 : Fin 1) j')) j

/-- The grid has ten points. -/
theorem hN : cfg0.N = 10 := N_0

/-- The index maps' values, decided over the grid: windows 0 and 7 move with the point along the rows, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- Row p of tile t is a row of the array. -/
theorem row_lt (t : Fin cfg0.N) (p : Fin 5000) : 5000 * t.val + p.val < 50000 := by
  have h1 : t.val < 10 := hN ▸ t.isLt
  have h2 := p.isLt
  omega

/-! ## The input blocks, named by their literal types, and read at an index -/

abbrev xblk (c : Dev nD) (t : Fin cfg0.N) : Vec Ideal S5000x96 .f32 := iblk0 V c 0 t
abbrev w1blk (c : Dev nD) (t : Fin cfg0.N) : Vec Ideal S96x32 .f32 := iblk0 V c 1 t
abbrev b1blk (c : Dev nD) (t : Fin cfg0.N) : Vec Ideal S1x32 .f32 := iblk0 V c 2 t
abbrev w2blk (c : Dev nD) (t : Fin cfg0.N) : Vec Ideal S32x64 .f32 := iblk0 V c 3 t
abbrev b2blk (c : Dev nD) (t : Fin cfg0.N) : Vec Ideal S1x64 .f32 := iblk0 V c 4 t
abbrev w3blk (c : Dev nD) (t : Fin cfg0.N) : Vec Ideal S64x128 .f32 := iblk0 V c 5 t
abbrev b3blk (c : Dev nD) (t : Fin cfg0.N) : Vec Ideal S1x128 .f32 := iblk0 V c 6 t

/-- The feature block of point t holds the rows 5000·t … 5000·t + 4999 of the feature array. -/
theorem xblk_apply (c : Dev nD) (t : Fin cfg0.N) (p : Fin 5000) (d : Fin 96) :
    xblk V c t (ix2 p d) = V c main_v14 (ix2 ⟨5000 * t.val + p.val, row_lt t p⟩ d) := by
  unfold xblk iblk0
  rw [View.read_apply]
  show V c main_v14 (((cfg0.win 0).blk t).view.emb (ix2 p d)) = _
  refine congrArg (V c main_v14) ?_
  obtain ⟨e0, e1, -⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 96 + 1 * d.val = d.val; omega

/-- The other six blocks are their whole arrays, at every point. -/
theorem w1blk_apply (c : Dev nD) (t : Fin cfg0.N) (d : Fin 96) (l : Fin 32) :
    w1blk V c t (ix2 d l) = V c main_arg2 (ix2 d l) := by
  unfold w1blk iblk0
  rw [View.read_apply]
  show V c main_arg2 (((cfg0.win 1).blk t).view.emb (ix2 d l)) = _
  refine congrArg (V c main_arg2) ?_
  obtain ⟨-, -, e0, e1, -⟩ := idx_facts t
  funext a; apply Fin.ext
  match a with
  | ⟨0, _⟩ => show win0_1.index t (0 : Fin 2) * 96 + 1 * d.val = d.val; omega
  | ⟨1, _⟩ => show win0_1.index t (1 : Fin 2) * 32 + 1 * l.val = l.val; omega

theorem b1blk_apply (c : Dev nD) (t : Fin cfg0.N) (z : Fin 1) (l : Fin 32) :
    b1blk V c t (ix2 z l) = V c main_v15 (ix2 z l) := by
  unfold b1blk iblk0
  rw [View.read_apply]
  show V c main_v15 (((cfg0.win 2).blk t).view.emb (ix2 z l)) = _
  refine congrArg (V c main_v15) ?_
  obtain ⟨-, -, -, -, e0, e1, -⟩ := idx_facts t
  funext a; apply Fin.ext
  match a with
  | ⟨0, _⟩ => show win0_2.index t (0 : Fin 2) * 1 + 1 * z.val = z.val; omega
  | ⟨1, _⟩ => show win0_2.index t (1 : Fin 2) * 32 + 1 * l.val = l.val; omega

theorem w2blk_apply (c : Dev nD) (t : Fin cfg0.N) (l : Fin 32) (k : Fin 64) :
    w2blk V c t (ix2 l k) = V c main_arg4 (ix2 l k) := by
  unfold w2blk iblk0
  rw [View.read_apply]
  show V c main_arg4 (((cfg0.win 3).blk t).view.emb (ix2 l k)) = _
  refine congrArg (V c main_arg4) ?_
  obtain ⟨-, -, -, -, -, -, e0, e1, -⟩ := idx_facts t
  funext a; apply Fin.ext
  match a with
  | ⟨0, _⟩ => show win0_3.index t (0 : Fin 2) * 32 + 1 * l.val = l.val; omega
  | ⟨1, _⟩ => show win0_3.index t (1 : Fin 2) * 64 + 1 * k.val = k.val; omega

theorem b2blk_apply (c : Dev nD) (t : Fin cfg0.N) (z : Fin 1) (k : Fin 64) :
    b2blk V c t (ix2 z k) = V c main_v16 (ix2 z k) := by
  unfold b2blk iblk0
  rw [View.read_apply]
  show V c main_v16 (((cfg0.win 4).blk t).view.emb (ix2 z k)) = _
  refine congrArg (V c main_v16) ?_
  obtain ⟨-, -, -, -, -, -, -, -, e0, e1, -⟩ := idx_facts t
  funext a; apply Fin.ext
  match a with
  | ⟨0, _⟩ => show win0_4.index t (0 : Fin 2) * 1 + 1 * z.val = z.val; omega
  | ⟨1, _⟩ => show win0_4.index t (1 : Fin 2) * 64 + 1 * k.val = k.val; omega

theorem w3blk_apply (c : Dev nD) (t : Fin cfg0.N) (k : Fin 64) (j : Fin 128) :
    w3blk V c t (ix2 k j) = V c main_arg6 (ix2 k j) := by
  unfold w3blk iblk0
  rw [View.read_apply]
  show V c main_arg6 (((cfg0.win 5).blk t).view.emb (ix2 k j)) = _
  refine congrArg (V c main_arg6) ?_
  obtain ⟨-, -, -, -, -, -, -, -, -, -, e0, e1, -⟩ := idx_facts t
  funext a; apply Fin.ext
  match a with
  | ⟨0, _⟩ => show win0_5.index t (0 : Fin 2) * 64 + 1 * k.val = k.val; omega
  | ⟨1, _⟩ => show win0_5.index t (1 : Fin 2) * 128 + 1 * j.val = j.val; omega

theorem b3blk_apply (c : Dev nD) (t : Fin cfg0.N) (z : Fin 1) (j : Fin 128) :
    b3blk V c t (ix2 z j) = V c main_v17 (ix2 z j) := by
  unfold b3blk iblk0
  rw [View.read_apply]
  show V c main_v17 (((cfg0.win 6).blk t).view.emb (ix2 z j)) = _
  refine congrArg (V c main_v17) ?_
  obtain ⟨-, -, -, -, -, -, -, -, -, -, -, -, e0, e1, -⟩ := idx_facts t
  funext a; apply Fin.ext
  match a with
  | ⟨0, _⟩ => show win0_6.index t (0 : Fin 2) * 1 + 1 * z.val = z.val; omega
  | ⟨1, _⟩ => show win0_6.index t (1 : Fin 2) * 128 + 1 * j.val = j.val; omega

/-! ## What a point leaves in the two output blocks -/

/-- The tile of point t: entry (p, j) is node 5000·t + p's activation j. -/
theorem tile_apply (c : Dev nD) (t : Fin cfg0.N) (p : Fin 5000) (j : Fin 128) :
    k0_pay3 (F := Ideal) (xblk V c t) (w1blk V c t) (b1blk V c t) (w2blk V c t) (b2blk V c t) (w3blk V c t) (b3blk V c t) (ix2 p j)
      = acts V c ⟨5000 * t.val + p.val, row_lt t p⟩ j := by
  refine (Tile.acts_apply (xblk V c t) (w1blk V c t) (b1blk V c t) (w2blk V c t) (b2blk V c t) (w3blk V c t) (b3blk V c t) p j).trans ?_
  unfold acts
  simp only [xblk_apply, w1blk_apply, b1blk_apply, w2blk_apply, b2blk_apply, w3blk_apply, b3blk_apply]

/-- The activations block after point t is the tile's activations. -/
theorem acts_blk (c : Dev nD) (t : Fin cfg0.N) :
    (outsAt0 V c t.val t.isLt).1
      = k0_pay3 (F := Ideal) (xblk V c t) (w1blk V c t) (b1blk V c t) (w2blk V c t) (b2blk V c t) (w3blk V c t) (b3blk V c t) := by
  by_cases h0 : t.val % 10 = 0
  · rw [outsAt0_A V c t h0]
    dsimp only
    exact Pieces.acts_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (w1blk V c t) (b1blk V c t) (w2blk V c t) (b2blk V c t) (w3blk V c t) (b3blk V c t)
  · rw [outsAt0_B V c t h0]
    dsimp only
    exact Pieces.acts_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (w1blk V c t) (b1blk V c t) (w2blk V c t) (b2blk V c t) (w3blk V c t) (b3blk V c t) (outsAt0 V c (t.val - 1) (Nat.lt_of_le_of_lt (Nat.sub_le _ _) t.isLt)).2

/-- One more tile: what the statistics held, plus the tile's column sum or column sum of squares, moves the bound
    from 5000·n to 5000·(n + 1). -/
theorem stats_step (f : Fin 50000 → EReal) (n : ℕ) (hn : n < 10) (a : Fin 2) (prev : EReal) (T : Fin 5000 → EReal)
    (hprev : prev = if a.val = 0 then GinNorm.sumBelow f (5000 * n) else GinNorm.sumBelow (fun r => f r * f r) (5000 * n))
    (hT : ∀ p : Fin 5000, T p = f ⟨5000 * n + p.val, by have := p.isLt; omega⟩) :
    prev + (if a.val = 0 then ∑ p : Fin 5000, T p else ∑ p : Fin 5000, T p * T p)
      = if a.val = 0 then GinNorm.sumBelow f (5000 * (n + 1)) else GinNorm.sumBelow (fun r => f r * f r) (5000 * (n + 1)) := by
  subst hprev
  by_cases ha : a.val = 0
  · rw [if_pos ha, if_pos ha, if_pos ha, GinNorm.sumBelow_succ f n hn]
    exact congrArg _ (Finset.sum_congr rfl fun p _ => hT p)
  · rw [if_neg ha, if_neg ha, if_neg ha, GinNorm.sumBelow_succ (fun r => f r * f r) n hn]
    exact congrArg _ (Finset.sum_congr rfl fun p _ => by rw [hT p])

/-- The statistics block after point t: row 0 the column sums, row 1 the column sums of squares, of the activations
    of the nodes below 5000·(t + 1). -/
theorem stats_blk (c : Dev nD) : ∀ (n : ℕ) (t : Fin cfg0.N), t.val = n → ∀ (a : Fin 2) (j : Fin 128),
    (outsAt0 V c t.val t.isLt).2 (ix2 a j)
      = if a.val = 0 then GinNorm.sumBelow (fun r => acts V c r j) (5000 * (t.val + 1))
        else GinNorm.sumBelow (fun r => acts V c r j * acts V c r j) (5000 * (t.val + 1)) := by
  intro n
  induction n with
  | zero =>
    intro t ht a j
    have h0 : t.val % 10 = 0 := by omega
    rw [outsAt0_A V c t h0]
    dsimp only
    refine (congrFun (Pieces.stats_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (w1blk V c t) (b1blk V c t) (w2blk V c t) (b2blk V c t) (w3blk V c t) (b3blk V c t)) (ix2 a j)).trans ?_
    refine (Tile.stats_apply _ _ a j).trans ?_
    refine stats_step (fun r => acts V c r j) t.val (by omega) a _ _ ?_ (fun p => tile_apply V c t p j)
    rw [Tile.fresh_apply, ht, Nat.mul_zero, GinNorm.sumBelow_zero, GinNorm.sumBelow_zero, ite_self]
  | succ n ih =>
    intro t ht a j
    have hlt : t.val < 10 := hN ▸ t.isLt
    have h0 : ¬t.val % 10 = 0 := by omega
    rw [outsAt0_B V c t h0]
    dsimp only
    refine (congrFun (Pieces.stats_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (w1blk V c t) (b1blk V c t) (w2blk V c t) (b2blk V c t) (w3blk V c t) (b3blk V c t) (outsAt0 V c (t.val - 1) (Nat.lt_of_le_of_lt (Nat.sub_le _ _) t.isLt)).2) (ix2 a j)).trans ?_
    refine (Tile.stats_apply _ _ a j).trans ?_
    refine stats_step (fun r => acts V c r j) t.val hlt a _ _ ?_ (fun p => tile_apply V c t p j)
    have e1 : t.val - 1 + 1 = t.val := by omega
    refine (ih ⟨t.val - 1, Nat.lt_of_le_of_lt (Nat.sub_le _ _) t.isLt⟩ (by show t.val - 1 = n; omega) a j).trans ?_
    show (if a.val = 0 then GinNorm.sumBelow (fun r => acts V c r j) (5000 * (t.val - 1 + 1))
        else GinNorm.sumBelow (fun r => acts V c r j * acts V c r j) (5000 * (t.val - 1 + 1))) = _
    rw [e1]

/-! ## From the blocks to the arrays -/

/-- What point t writes back to the activations array is block t of all nodes' activations. -/
theorem acts_flushed (c : Dev nD) (t : Fin cfg0.N) :
    (dat0 V c).flushed 7 t = ((cfg0.win 7).blk t).view.read (Elt Ideal) (fun i => acts V c (i 0) (i 1)) := by
  show (cfg0.win 7).cut (grid0.coords t) ((dat0 V c).after 7 t) = _
  rw [after0_7, acts_blk]
  funext y
  obtain ⟨p, j, rfl⟩ : ∃ (p : Fin 5000) (j : Fin 128), y = ix2 p j := ⟨y 0, y 1, eq_ix2 y⟩
  rw [View.read_apply]
  show k0_pay3 (F := Ideal) (xblk V c t) (w1blk V c t) (b1blk V c t) (w2blk V c t) (b2blk V c t) (w3blk V c t) (b3blk V c t) (ix2 p j)
    = acts V c (((cfg0.win 7).blk t).view.emb (ix2 p j) 0) (((cfg0.win 7).blk t).view.emb (ix2 p j) 1)
  rw [tile_apply]
  obtain ⟨-, -, -, -, -, -, -, -, -, -, -, -, -, -, e0, e1, -⟩ := idx_facts t
  have r0 : ((cfg0.win 7).blk t).view.emb (ix2 p j) 0 = (⟨5000 * t.val + p.val, row_lt t p⟩ : Fin 50000) :=
    Fin.ext (by show win0_7.index t (0 : Fin 2) * 5000 + 1 * p.val = 5000 * t.val + p.val; omega)
  have r1 : ((cfg0.win 7).blk t).view.emb (ix2 p j) 1 = j :=
    Fin.ext (by show win0_7.index t (1 : Fin 2) * 128 + 1 * j.val = j.val; omega)
  rw [r0, r1]

/-- An index of the activations array is in point t's block iff each coordinate is in the block's range on its axis. -/
theorem acts_mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v20_0).slice (win0_7.rect t)).set ↔ _
  rw [View.set_slice_whole, Rect.mem_set_unit]
  exact Iff.rfl

/-- Row r of the activations array is in the block of point r / 5000. -/
theorem acts_cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hq : (i 0).val / 5000 < cfg0.N := by rw [hN]; omega
  obtain ⟨-, -, -, -, -, -, -, -, -, -, -, -, -, -, e0, e1, -⟩ := idx_facts ⟨(i 0).val / 5000, hq⟩
  have e0' : win0_7.index ⟨(i 0).val / 5000, hq⟩ (0 : Fin 2) = (i 0).val / 5000 := e0
  refine ⟨⟨(i 0).val / 5000, hq⟩, flush0_7 _, ?_⟩
  rw [acts_mem_blk]
  intro a
  match a with
  | ⟨0, _⟩ =>
    show win0_7.index ⟨(i 0).val / 5000, hq⟩ (0 : Fin 2) * 5000 ≤ (i 0).val
      ∧ (i 0).val < win0_7.index ⟨(i 0).val / 5000, hq⟩ (0 : Fin 2) * 5000 + 5000
    omega
  | ⟨1, _⟩ =>
    show win0_7.index ⟨(i 0).val / 5000, hq⟩ (1 : Fin 2) * 128 ≤ (i 1).val
      ∧ (i 1).val < win0_7.index ⟨(i 0).val / 5000, hq⟩ (1 : Fin 2) * 128 + 128
    omega

/-- After the region the activations array holds every node's activations. -/
theorem acts_array (c : Dev nD) : (dat0 V c).arrAt 7 cfg0.N = fun i => acts V c (i 0) (i 1) :=
  (dat0 V c).arrAt_eq_of_cover 7 (fun i => acts V c (i 0) (i 1)) (fun t _ => acts_flushed V c t) acts_cover

/-- The column sums and sums of squares over all nodes, as contents of the statistics array. -/
abbrev statsAll (c : Dev nD) (i : S2x128.Idx) : EReal :=
  if (i 0).val = 0 then ∑ r, acts V c r (i 1) else ∑ r, acts V c r (i 1) * acts V c r (i 1)

theorem statsAll_apply (c : Dev nD) (a : Fin 2) (j : Fin 128) (i : S2x128.Idx) (h0 : (i 0).val = a.val) (h1 : i 1 = j) :
    statsAll V c i = if a.val = 0 then ∑ r, acts V c r j else ∑ r, acts V c r j * acts V c r j := by
  unfold statsAll
  rw [h0, h1]

/-- The one write-back of the statistics, after the last point, writes the sums over all nodes; its block is the
    whole array. -/
theorem stats_flushed (c : Dev nD) (t : Fin cfg0.N) (hf : (cfg0.win 8).flush t = true) :
    (dat0 V c).flushed 8 t = ((cfg0.win 8).blk t).view.read (Elt Ideal) (statsAll V c) := by
  have hlt : t.val < 10 := hN ▸ t.isLt
  have h9 : t.val = 9 := by have := (flush0_8 t).mp hf; omega
  show (cfg0.win 8).cut (grid0.coords t) ((dat0 V c).after 8 t) = _
  rw [after0_8]
  funext y
  obtain ⟨a, j, rfl⟩ : ∃ (a : Fin 2) (j : Fin 128), y = ix2 a j := ⟨y 0, y 1, eq_ix2 y⟩
  rw [View.read_apply]
  show (outsAt0 V c t.val t.isLt).2 (ix2 a j) = statsAll V c (((cfg0.win 8).blk t).view.emb (ix2 a j))
  obtain ⟨-, -, -, -, -, -, -, -, -, -, -, -, -, -, -, -, e0, e1⟩ := idx_facts t
  have r0 : (((cfg0.win 8).blk t).view.emb (ix2 a j) 0).val = a.val := by
    show win0_8.index t (0 : Fin 2) * 2 + 1 * a.val = a.val; omega
  have r1 : ((cfg0.win 8).blk t).view.emb (ix2 a j) 1 = j :=
    Fin.ext (by show win0_8.index t (1 : Fin 2) * 128 + 1 * j.val = j.val; omega)
  rw [stats_blk V c t.val t rfl a j, statsAll_apply V c a j _ r0 r1, h9, show 5000 * (9 + 1) = 50000 from rfl,
    GinNorm.sumBelow_all, GinNorm.sumBelow_all]

/-- An index of the statistics array is in a point's block iff each coordinate is in the block's range on its axis. -/
theorem stats_mem_blk (t : Fin cfg0.N) (i : S2x128.Idx) :
    i ∈ ((cfg0.win 8).blk t).view.set ↔ ∀ a : Fin 2, win0_8.index t a * S2x128.size a ≤ (i a).val ∧ (i a).val < win0_8.index t a * S2x128.size a + S2x128.size a := by
  show i ∈ ((View.whole main_v20_1).slice (win0_8.rect t)).set ↔ _
  rw [View.set_slice_whole, Rect.mem_set_unit]
  exact Iff.rfl

/-- The last point's block covers the statistics array. -/
theorem stats_cover (i : S2x128.Idx) :
    ∃ t : Fin cfg0.N, (cfg0.win 8).flush t = true ∧ i ∈ ((cfg0.win 8).blk t).view.set := by
  have hi0 : (i 0).val < 2 := (i 0).isLt
  have hi1 : (i 1).val < 128 := (i 1).isLt
  have hq : 9 < cfg0.N := by rw [hN]; omega
  obtain ⟨-, -, -, -, -, -, -, -, -, -, -, -, -, -, -, -, e0, e1⟩ := idx_facts ⟨9, hq⟩
  refine ⟨⟨9, hq⟩, (flush0_8 _).mpr rfl, ?_⟩
  rw [stats_mem_blk]
  intro a
  match a with
  | ⟨0, _⟩ =>
    show win0_8.index ⟨9, hq⟩ (0 : Fin 2) * 2 ≤ (i 0).val ∧ (i 0).val < win0_8.index ⟨9, hq⟩ (0 : Fin 2) * 2 + 2
    omega
  | ⟨1, _⟩ =>
    show win0_8.index ⟨9, hq⟩ (1 : Fin 2) * 128 ≤ (i 1).val ∧ (i 1).val < win0_8.index ⟨9, hq⟩ (1 : Fin 2) * 128 + 128
    omega

/-- After the region the statistics array holds, per column, the sum (row 0) and the sum of squares (row 1) of the
    activations over all nodes. -/
theorem stats_array (c : Dev nD) :
    (dat0 V c).arrAt 8 cfg0.N
      = fun i => if (i 0).val = 0 then ∑ r, acts V c r (i 1) else ∑ r, acts V c r (i 1) * acts V c r (i 1) :=
  (dat0 V c).arrAt_eq_of_cover 8 (statsAll V c) (stats_flushed V c) stats_cover

end Cert.KernelIdeal.Stage1

end
-- ==== Proof.Norm.lean ====
/-
  The second kernel's arithmetic at one entry: from the two rows of the statistics (a column's sum and its sum of
  squares), the entry's own activation and the column's γ and β, the normalised value with the variance taken as
  the mean of the squares less the square of the mean.
-/
import proofs.«149962_j74019466379556_1_alg».proof.Proof.Gen.KernelIdeal.Skeleton
import proofs.«149962_j74019466379556_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Norm

open Cert.KernelIdeal Cert.KernelIdeal.Gen Idealize.ShloMosaic Idealize.ShloMosaic.TcCoe Idealize.ShloMosaic.ValueIdx

/-- The reciprocal square root acts entry by entry. -/
private theorem rsqrt_apply {s : Shape} {φ : FTy} (a : FVec Ideal s φ) (i : s.Idx) : rsqrt a i = Ideal.rsqrt (a i) := rfl

/-- Row 0 of a two-row block, cut out as a one-row block, read at column j. -/
private theorem row0_apply {α : Type} (x : S2x128.Idx → α) (j : Fin 128) :
    extractStridedSlice S1x128 ![0, 0] x slices_S2x128_o0_0_S1x128 (ix2 (0 : Fin 1) j) = x (ix2 (0 : Fin 2) j) :=
  extractStridedSlice_apply _ x _ _ _ fun a => match a with
    | ⟨0, _⟩ => rfl
    | ⟨1, _⟩ => (Nat.zero_add j.val).symm

/-- Row 1 of a two-row block, cut out as a one-row block, read at column j. -/
private theorem row1_apply {α : Type} (x : S2x128.Idx → α) (j : Fin 128) :
    extractStridedSlice S1x128 ![1, 0] x slices_S2x128_o1_0_S1x128 (ix2 (0 : Fin 1) j) = x (ix2 (1 : Fin 2) j) :=
  extractStridedSlice_apply _ x _ _ _ fun a => match a with
    | ⟨0, _⟩ => rfl
    | ⟨1, _⟩ => (Nat.zero_add j.val).symm

/-- Entry (p, j) of the normalised tile. -/
theorem norm_apply (v0 : Vec Ideal S2x128 .f32) (v13 : Vec Ideal S5000x128 .f32) (v19 : Vec Ideal S1x128 .f32) (v23 : Vec Ideal S1x128 .f32)
    (p : Fin 5000) (j : Fin 128) :
    k1_pay1 (F := Ideal) v0 v13 v19 v23 (ix2 p j)
      = GinNorm.normOf (v0 (ix2 (0 : Fin 2) j)) (v0 (ix2 (1 : Fin 2) j)) (v13 (ix2 p j)) (v19 (ix2 (0 : Fin 1) j)) (v23 (ix2 (0 : Fin 1) j)) := by
  unfold k1_pay1
  -- the casts to the same shape are identities
  rw [shapeCast_self v0, shapeCast_self v13, shapeCast_self v19, shapeCast_self v23]
  -- the arithmetic is entry by entry; a one-row block spread over the tile reads its row at column j
  simp only [addf_apply, mulf_apply, subf_apply, divf_apply, rsqrt_apply, broadcast_apply, broadcastTo_1b_ab_apply,
    row0_apply, row1_apply, Ideal.ofBits_def]
  -- what is left is the specification with its two literals spelt out
  rfl

end Cert.KernelIdeal.Norm

end
-- ==== Proof.Stage2.lean ====
/-
  The second region's array after its ten grid points: each point normalises its tile of 5000 nodes against the
  whole statistics array, and the tiles' blocks fill the result array.
-/
import proofs.«149962_j74019466379556_1_alg».proof.Proof.Gen.KernelIdeal.Frame
import proofs.«149962_j74019466379556_1_alg».proof.Proof.Spec
import proofs.«149962_j74019466379556_1_alg».proof.Proof.Norm
import Idealize.ShloMosaic.Lib.ValueIdx
import Idealize.ShloMosaic.Lib.Pipeline.Value

set_option maxRecDepth 16384

noncomputable section

namespace Cert.KernelIdeal.Stage2

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered
variable (V : (c : Dev nD) → (b : Ref sig .tc) → Buf (Elt Ideal) ((c : Thread nD τ).loc b))

/-! ## The index maps, decided once over the ten grid points -/

/-- A whole-block access starts at offset (0, 0). -/
theorem zero_offsets : (![0, 0] : Fin 2 → Nat) = fun _ => 0 :=
  funext fun a => by match a with | ⟨0, _⟩ => rfl | ⟨1, _⟩ => rfl

/-- At point t the activations' block index is the result's on both axes, the statistics, γ and β are each their
    one block (0, 0), and the result's block index is (t, 0): block t is rows 5000 t … 5000 t + 4999, all columns. -/
theorem index_facts : ∀ t : Fin cfg1.N,
    win1_0.index t (0 : Fin 2) = win1_4.index t (0 : Fin 2)
    ∧ win1_0.index t (1 : Fin 2) = win1_4.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## One function of the whole arrays -/

/-- Entry (r, j) of the normalised array: activation (r, j), column j's sum and sum of squares (rows 0 and 1 of the
    statistics), γ j and β j. -/
abbrev normed (c : Dev nD) : S50000x128.Idx → EReal := fun i =>
  GinNorm.normOf (V c main_v20_1 (ix2 (0 : Fin 2) (i 1))) (V c main_v20_1 (ix2 (1 : Fin 2) (i 1))) (V c main_v20_0 i)
    (V c main_v18 (ix2 (0 : Fin 1) (i 1))) (V c main_v19 (ix2 (0 : Fin 1) (i 1)))

/-! ## What a point writes back -/

/-- Point t writes back block t of the normalised array. The body's one store covers its whole buffer, so the buffer
    is the payload of the four input blocks; entry (p, j) of the payload is the normalisation of entry (p, j) of the
    activations' block by column j of the other three; the activations' block sits where the result's does, so its
    entry (p, j) is the array's entry at the result's index, and the other three blocks are their whole arrays, read
    at column j, which is the result index's column because the result's block spans all columns. -/
theorem flushed_eq (c : Dev nD) (t : Fin cfg1.N) :
    (dat1 V c).flushed 4 t = ((cfg1.win 4).blk t).view.read (Elt Ideal) (normed V c) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S2x128) zero_offsets,
    View.ld_unit_zero (S := S1x128) zero_offsets]
  obtain ⟨e00, e01, e10, e11, e20, e21, e30, e31, e40, e41⟩ := index_facts t
  funext y
  obtain ⟨p, j, rfl⟩ : ∃ (p : Fin 5000) (j : Fin 128), y = ix2 p j := ⟨y 0, y 1, eq_ix2 y⟩
  show k1_pay1 (F := Ideal) (iblk1 V c 1 t) (iblk1 V c 0 t) (iblk1 V c 2 t) (iblk1 V c 3 t) (ix2 p j)
    = normed V c (((cfg1.win 4).blk t).view.emb (ix2 p j))
  refine (Norm.norm_apply _ _ _ _ p j).trans ?_
  -- the activations: same block index, same place in the array
  have h0 : iblk1 V c 0 t (ix2 p j) = V c main_v20_0 (((cfg1.win 4).blk t).view.emb (ix2 p j)) := by
    show V c main_v20_0 (((cfg1.win 0).blk t).view.emb (ix2 p j)) = V c main_v20_0 (((cfg1.win 4).blk t).view.emb (ix2 p j))
    refine congrArg (V c main_v20_0) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * j.val = win1_4.index t (1 : Fin 2) * 128 + 1 * j.val; omega
  -- the statistics: row k of the whole 2 × 128 array, at the result's column
  have h1 : ∀ k : Fin 2, iblk1 V c 1 t (ix2 k j)
      = V c main_v20_1 (ix2 k ((((cfg1.win 4).blk t).view.emb (ix2 p j)) 1)) := fun k => by
    show V c main_v20_1 (((cfg1.win 1).blk t).view.emb (ix2 k j)) = _
    refine congrArg (V c main_v20_1) (funext fun a => Fin.ext ?_)
    match a with
    | ⟨0, _⟩ => show win1_1.index t (0 : Fin 2) * 2 + 1 * k.val = k.val; omega
    | ⟨1, _⟩ => show win1_1.index t (1 : Fin 2) * 128 + 1 * j.val = win1_4.index t (1 : Fin 2) * 128 + 1 * j.val; omega
  -- γ: the one row of the whole 1 × 128 array, at the result's column
  have h2 : iblk1 V c 2 t (ix2 (0 : Fin 1) j)
      = V c main_v18 (ix2 (0 : Fin 1) ((((cfg1.win 4).blk t).view.emb (ix2 p j)) 1)) := by
    show V c main_v18 (((cfg1.win 2).blk t).view.emb (ix2 (0 : Fin 1) j)) = _
    refine congrArg (V c main_v18) (funext fun a => Fin.ext ?_)
    match a with
    | ⟨0, _⟩ => show win1_2.index t (0 : Fin 2) * 1 + 1 * 0 = 0; omega
    | ⟨1, _⟩ => show win1_2.index t (1 : Fin 2) * 128 + 1 * j.val = win1_4.index t (1 : Fin 2) * 128 + 1 * j.val; omega
  -- β: likewise
  have h3 : iblk1 V c 3 t (ix2 (0 : Fin 1) j)
      = V c main_v19 (ix2 (0 : Fin 1) ((((cfg1.win 4).blk t).view.emb (ix2 p j)) 1)) := by
    show V c main_v19 (((cfg1.win 3).blk t).view.emb (ix2 (0 : Fin 1) j)) = _
    refine congrArg (V c main_v19) (funext fun a => Fin.ext ?_)
    match a with
    | ⟨0, _⟩ => show win1_3.index t (0 : Fin 2) * 1 + 1 * 0 = 0; omega
    | ⟨1, _⟩ => show win1_3.index t (1 : Fin 2) * 128 + 1 * j.val = win1_4.index t (1 : Fin 2) * 128 + 1 * j.val; omega
  rw [h0, h1 0, h1 1, h2, h3]

/-! ## The ten blocks fill the array -/

/-- An index of the array lies in point t's block iff each coordinate lies in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v21).slice (win1_4.rect t)).set ↔ _
  rw [View.set_slice_whole, Rect.mem_set_unit]
  exact Iff.rfl

/-- Every index (r, j) lies in the block of point r / 5000, which is written back like every point's. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31, e40, e41⟩ := index_facts t
  have q0 : win1_4.index t (0 : Fin 2) = (i 0).val / 5000 := e40
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-! ## The array -/

/-- After the region the result array holds, at (r, j), activation (r, j) normalised by column j's two sums, γ and β
    (these two as 1 × 128 arrays). -/
theorem out_array (c : Dev nD) :
    (dat1 V c).arrAt 4 cfg1.N
      = fun i => GinNorm.normOf (V c main_v20_1 (ix2 (0 : Fin 2) (i 1))) (V c main_v20_1 (ix2 (1 : Fin 2) (i 1))) (V c main_v20_0 i)
          (V c main_v18 (ix2 (0 : Fin 1) (i 1))) (V c main_v19 (ix2 (0 : Fin 1) (i 1))) :=
  -- each point writes back its block of the one function, and the blocks cover the array
  (dat1 V c).arrAt_eq_of_cover 4 (normed V c) (fun t _ => flushed_eq V c t) covered

end Cert.KernelIdeal.Stage2

end
-- ==== Proof.KernelValue.lean ====
/-
  The kernel program's result, from the launch memory.

  @main runs its host operations, then the two kernel regions. What the first region is entered with: the feature array (the
  gather along the edges' sources, the sum into their destinations, the node's own features added: spelt exactly as the
  reference spells it, and never opened), the three weight matrices as launched, and the three biases, γ and β each
  reshaped from a vector to one row. The first region leaves the activations array and the two column sums; the second
  region is entered with those and leaves the normalised array. Put together, the result buffer ends at the
  specification's array with each column's variance taken from its two sums.
-/
import proofs.«149962_j74019466379556_1_alg».proof.Proof.Gen.KernelIdeal.Frame
import proofs.«149962_j74019466379556_1_alg».proof.Proof.Gen.ReferenceIdeal.Read
import proofs.«149962_j74019466379556_1_alg».proof.Proof.Spec
import proofs.«149962_j74019466379556_1_alg».proof.Proof.Stage1
import proofs.«149962_j74019466379556_1_alg».proof.Proof.Stage2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The contents at the segment boundaries -/

theorem entry_feats (c : Dev nD) :
    V1 m ρ c main_v14 = Cert.ReferenceIdeal.Read.val_main_v14 (F := Ideal) (m ((c : Thread nD τ).loc main_arg0)) (m ((c : Thread nD τ).loc main_arg1)) := by
  show StableHlo.after hostOps0 (W0 m ρ c) (Proc.devRef .tc main_v14) = _
  after_results
  rfl

theorem entry_W1 (c : Dev nD) : V1 m ρ c main_arg2 = m ((c : Thread nD τ).loc main_arg2) := by
  show StableHlo.after hostOps0 (W0 m ρ c) (Proc.devRef .tc main_arg2) = _
  after_results
theorem entry_W2 (c : Dev nD) : V1 m ρ c main_arg4 = m ((c : Thread nD τ).loc main_arg4) := by
  show StableHlo.after hostOps0 (W0 m ρ c) (Proc.devRef .tc main_arg4) = _
  after_results
theorem entry_W3 (c : Dev nD) : V1 m ρ c main_arg6 = m ((c : Thread nD τ).loc main_arg6) := by
  show StableHlo.after hostOps0 (W0 m ρ c) (Proc.devRef .tc main_arg6) = _
  after_results

theorem entry_b1 (c : Dev nD) : V1 m ρ c main_v15 = shapeCast S1x32 (m ((c : Thread nD τ).loc main_arg3)) shapeCasts_S32_S1x32 := by
  show StableHlo.after hostOps0 (W0 m ρ c) (Proc.devRef .tc main_v15) = _
  after_results
  rfl
theorem entry_b2 (c : Dev nD) : V1 m ρ c main_v16 = shapeCast S1x64 (m ((c : Thread nD τ).loc main_arg5)) shapeCasts_S64_S1x64 := by
  show StableHlo.after hostOps0 (W0 m ρ c) (Proc.devRef .tc main_v16) = _
  after_results
  rfl
theorem entry_b3 (c : Dev nD) : V1 m ρ c main_v17 = shapeCast S1x128 (m ((c : Thread nD τ).loc main_arg7)) shapeCasts_S128_S1x128 := by
  show StableHlo.after hostOps0 (W0 m ρ c) (Proc.devRef .tc main_v17) = _
  after_results
  rfl
theorem entry_gamma (c : Dev nD) : V1 m ρ c main_v18 = shapeCast S1x128 (m ((c : Thread nD τ).loc main_arg8)) shapeCasts_S128_S1x128 := by
  show StableHlo.after hostOps0 (W0 m ρ c) (Proc.devRef .tc main_v18) = _
  after_results
  rfl
theorem entry_beta (c : Dev nD) : V1 m ρ c main_v19 = shapeCast S1x128 (m ((c : Thread nD τ).loc main_arg9)) shapeCasts_S128_S1x128 := by
  show StableHlo.after hostOps0 (W0 m ρ c) (Proc.devRef .tc main_v19) = _
  after_results
  rfl

/-- The second region is entered with the first region's two arrays, and γ and β as the first region found them. -/
theorem mid_acts (c : Dev nD) : V2 m ρ c main_v20_0 = (dat0 (V1 m ρ) c).arrAt 7 cfg0.N := W2_arr m ρ c 7
theorem mid_stats (c : Dev nD) : V2 m ρ c main_v20_1 = (dat0 (V1 m ρ) c).arrAt 8 cfg0.N := W2_arr m ρ c 8
theorem mid_gamma (c : Dev nD) : V2 m ρ c main_v18 = V1 m ρ c main_v18 := W2_of_ne m ρ c main_v18 (by decide)
theorem mid_beta (c : Dev nD) : V2 m ρ c main_v19 = V1 m ρ c main_v19 := W2_of_ne m ρ c main_v19 (by decide)
theorem last_out (c : Dev nD) : W3 m ρ c (Proc.devRef .tc main_v21) = (dat1 (V2 m ρ) c).arrAt 4 cfg1.N := W3_arr m ρ c 4

/-! ## The result -/

/-- The feature array the first region is entered with, as the reference's own first operations spell it. -/
abbrev feats (c : Dev nD) := Cert.ReferenceIdeal.Read.val_main_v14 (F := Ideal) (m ((c : Thread nD τ).loc main_arg0)) (m ((c : Thread nD τ).loc main_arg1))

/-- A node's activations from the first region's entry contents are its activations from the launch memory: the weights are
    the arguments themselves and each bias, reshaped to one row, reads its vector. -/
theorem acts_eq (c : Dev nD) (r : Fin 50000) (j : Fin 128) :
    Stage1.acts (V1 m ρ) c r j
      = GinNorm.acts (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) r j := by
  unfold Stage1.acts GinNorm.acts
  rw [entry_feats m ρ c, entry_W1 m ρ c, entry_W2 m ρ c, entry_W3 m ρ c, entry_b1 m ρ c, entry_b2 m ρ c, entry_b3 m ρ c]
  have e1 : (fun l : Fin 32 => shapeCast S1x32 (m ((c : Thread nD τ).loc main_arg3)) shapeCasts_S32_S1x32 (ix2 (0 : Fin 1) l))
      = fun l => m ((c : Thread nD τ).loc main_arg3) (ix1 l) := funext fun l => shapeCast_a_1a_apply _ _ _ _
  have e2 : (fun k : Fin 64 => shapeCast S1x64 (m ((c : Thread nD τ).loc main_arg5)) shapeCasts_S64_S1x64 (ix2 (0 : Fin 1) k))
      = fun k => m ((c : Thread nD τ).loc main_arg5) (ix1 k) := funext fun k => shapeCast_a_1a_apply _ _ _ _
  have e3 : (fun j' : Fin 128 => shapeCast S1x128 (m ((c : Thread nD τ).loc main_arg7)) shapeCasts_S128_S1x128 (ix2 (0 : Fin 1) j'))
      = fun j' => m ((c : Thread nD τ).loc main_arg7) (ix1 j') := funext fun j' => shapeCast_a_1a_apply _ _ _ _
  rw [e1, e2, e3]

/-- THE KERNEL'S RESULT: the last boundary's contents of the result buffer are the normalised activations with each column's
    variance taken from its two sums, over the launch memory's arguments. -/
theorem result_eq (c : Dev nD) :
    W3 m ρ c (Proc.devRef .tc main_v21)
      = GinNorm.outKer (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [last_out m ρ c, Stage2.out_array (V2 m ρ) c]
  funext i
  -- the column's sum and sum of squares, from the statistics array's two rows
  have hs : (V2 m ρ c main_v20_1 (ix2 (0 : Fin 2) (i 1)) : EReal)
      = ∑ r, GinNorm.acts (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) r (i 1) := by
    rw [mid_stats m ρ c, Stage1.stats_array (V1 m ρ) c]
    exact (if_pos rfl).trans (show (∑ r, Stage1.acts (V1 m ρ) c r (i 1) : EReal) = _ from
      Finset.sum_congr rfl fun r _ => acts_eq m ρ c r _)
  have hq : (V2 m ρ c main_v20_1 (ix2 (1 : Fin 2) (i 1)) : EReal)
      = ∑ r, GinNorm.acts (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) r (i 1)
        * GinNorm.acts (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) r (i 1) := by
    rw [mid_stats m ρ c, Stage1.stats_array (V1 m ρ) c]
    exact (if_neg (fun h => absurd h (by decide : ¬ ((1 : Fin 2).val = 0)))).trans
      (show (∑ r, Stage1.acts (V1 m ρ) c r (i 1) * Stage1.acts (V1 m ρ) c r (i 1) : EReal) = _ from
        Finset.sum_congr rfl fun r _ => congrArg₂ (· * ·) (acts_eq m ρ c r _) (acts_eq m ρ c r _))
  -- the entry's own activation
  have hx : (V2 m ρ c main_v20_0 i : EReal)
      = GinNorm.acts (feats m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (i 0) (i 1) := by
    rw [mid_acts m ρ c, Stage1.acts_array (V1 m ρ) c]
    exact acts_eq m ρ c _ _
  -- γ and β, each reshaped to one row
  have hg : (V2 m ρ c main_v18 (ix2 (0 : Fin 1) (i 1)) : EReal) = m ((c : Thread nD τ).loc main_arg8) (ix1 (i 1)) := by
    rw [mid_gamma m ρ c, entry_gamma m ρ c]; exact shapeCast_a_1a_apply _ _ _ _
  have hb : (V2 m ρ c main_v19 (ix2 (0 : Fin 1) (i 1)) : EReal) = m ((c : Thread nD τ).loc main_arg9) (ix1 (i 1)) := by
    rw [mid_beta m ρ c, entry_beta m ρ c]; exact shapeCast_a_1a_apply _ _ _ _
  rw [hs, hq, hx, hg, hb]
  unfold GinNorm.outKer
  rfl

end Cert.KernelIdeal.Result

end
-- ==== Proof.RefValue.lean ====
/-
  The reference program's result, read entry by entry.

  Its first operations (the gather along the edges' sources, the sum into the edges' destinations, the addition of a
  node's own features) give the feature array; they are carried as one array and never opened. From there on
  every operation is read at an index: the three dense layers as sums over the contracted axis, the logistic function
  from its spelling 1 / (1 + exp (−z)), the rectifier, the column mean as a sum over the 50000 rows divided by the
  count, the variance as the mean of the squared deviations, and the normalisation.
-/
import proofs.«149962_j74019466379556_1_alg».proof.Proof.Gen.ReferenceIdeal.Read
import proofs.«149962_j74019466379556_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.TcCoe Idealize.ShloMosaic.ValueIdx

/-! ## The index maps of the layout operations, on indices given by their coordinates -/

private theorem lidx15 (r : Fin 50000) (l : Fin 32) (d : Fin 96) : lidx_main_v15 (ix2 r l) d = ix2 r d :=
  funext fun a => Fin.ext (by match a with | ⟨0, _⟩ => rfl | ⟨1, _⟩ => rfl)
private theorem ridx15 (r : Fin 50000) (l : Fin 32) (d : Fin 96) : ridx_main_v15 (ix2 r l) d = ix2 d l :=
  funext fun a => Fin.ext (by match a with | ⟨0, _⟩ => rfl | ⟨1, _⟩ => rfl)
private theorem idx17 (r : Fin 50000) (l : Fin 32) : idx_main_v16 (idx_main_v17 (ix2 r l)) = ix1 l :=
  funext fun a => Fin.ext (by match a with | ⟨0, _⟩ => rfl)
private theorem lidx25 (r : Fin 50000) (k : Fin 64) (l : Fin 32) : lidx_main_v25 (ix2 r k) l = ix2 r l :=
  funext fun a => Fin.ext (by match a with | ⟨0, _⟩ => rfl | ⟨1, _⟩ => rfl)
private theorem ridx25 (r : Fin 50000) (k : Fin 64) (l : Fin 32) : ridx_main_v25 (ix2 r k) l = ix2 l k :=
  funext fun a => Fin.ext (by match a with | ⟨0, _⟩ => rfl | ⟨1, _⟩ => rfl)
private theorem idx27 (r : Fin 50000) (k : Fin 64) : idx_main_v26 (idx_main_v27 (ix2 r k)) = ix1 k :=
  funext fun a => Fin.ext (by match a with | ⟨0, _⟩ => rfl)
private theorem lidx35 (r : Fin 50000) (j : Fin 128) (k : Fin 64) : lidx_main_v35 (ix2 r j) k = ix2 r k :=
  funext fun a => Fin.ext (by match a with | ⟨0, _⟩ => rfl | ⟨1, _⟩ => rfl)
private theorem ridx35 (r : Fin 50000) (j : Fin 128) (k : Fin 64) : ridx_main_v35 (ix2 r j) k = ix2 k j :=
  funext fun a => Fin.ext (by match a with | ⟨0, _⟩ => rfl | ⟨1, _⟩ => rfl)
private theorem idx37 (r : Fin 50000) (j : Fin 128) : idx_main_v36 (idx_main_v37 (ix2 r j)) = ix1 j :=
  funext fun a => Fin.ext (by match a with | ⟨0, _⟩ => rfl)
private theorem idx44 (j : Fin 128) (r : Fin 50000) : idx_main_v44 (ix1 j) r = ix2 r j :=
  funext fun a => Fin.ext (by match a with | ⟨0, _⟩ => rfl | ⟨1, _⟩ => rfl)
private theorem idx48 (r : Fin 50000) (j : Fin 128) : idx_main_v47 (idx_main_v48 (ix2 r j)) = ix1 j :=
  funext fun a => Fin.ext (by match a with | ⟨0, _⟩ => rfl)
private theorem idx51 (j : Fin 128) (r : Fin 50000) : idx_main_v51 (ix1 j) r = ix2 r j :=
  funext fun a => Fin.ext (by match a with | ⟨0, _⟩ => rfl | ⟨1, _⟩ => rfl)
private theorem idx55 (r : Fin 50000) (j : Fin 128) : idx_main_v54 (idx_main_v55 (ix2 r j)) = ix1 j :=
  funext fun a => Fin.ext (by match a with | ⟨0, _⟩ => rfl)
private theorem idx61 (r : Fin 50000) (j : Fin 128) : idx_main_v60 (idx_main_v61 (ix2 r j)) = ix1 j :=
  funext fun a => Fin.ext (by match a with | ⟨0, _⟩ => rfl)
private theorem idx64 (r : Fin 50000) (j : Fin 128) : idx_main_v63 (idx_main_v64 (ix2 r j)) = ix1 j :=
  funext fun a => Fin.ext (by match a with | ⟨0, _⟩ => rfl)
private theorem idx67 (r : Fin 50000) (j : Fin 128) : idx_main_v66 (idx_main_v67 (ix2 r j)) = ix1 j :=
  funext fun a => Fin.ext (by match a with | ⟨0, _⟩ => rfl)

section Stages

variable (x0 : (⟨S50000x96, .f32⟩ : BufTy).Contents (Elt Ideal)) (x1 : (⟨S2x800000, .i32⟩ : BufTy).Contents (Elt Ideal))
    (x2 : (⟨S96x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S64x128, .f32⟩ : BufTy).Contents (Elt Ideal)) (x7 x8 x9 : (⟨S128, .f32⟩ : BufTy).Contents (Elt Ideal))

/-! ## The three layers -/

/-- The first layer: the logistic function of the features' product with the weights, plus the bias. -/
private theorem layer1 (r : Fin 50000) (l : Fin 32) :
    val_main_v24 (F := Ideal) x0 x1 x2 x3 (ix2 r l)
      = Ideal.logistic ((∑ d : Fin 96, val_main_v14 (F := Ideal) x0 x1 (ix2 r d) * x2 (ix2 d l)) + x3 (ix1 l)) := by
  rw [val_main_v24_apply, val_main_v23_apply, val_main_cst_2_apply, val_main_v22_apply, val_main_v21_apply, val_main_cst_1_apply,
    val_main_v20_apply, val_main_v19_apply, val_main_v18_apply, val_main_v15_apply, val_main_v17_apply, val_main_v16_apply]
  simp only [lidx15, ridx15, idx17, Ideal.hostDivf_def, Ideal.ofBits_def, Ideal.addf_def, Ideal.hostUnary_exp_def,
    Ideal.hostNegf_def, Ideal.negf_def, GinNorm.ofBits_one]
  rfl

/-- The second layer, on the first layer's values. -/
private theorem layer2 (r : Fin 50000) (k : Fin 64) :
    val_main_v34 (F := Ideal) x0 x1 x2 x3 x4 x5 (ix2 r k)
      = Ideal.logistic ((∑ l : Fin 32, val_main_v24 (F := Ideal) x0 x1 x2 x3 (ix2 r l) * x4 (ix2 l k)) + x5 (ix1 k)) := by
  rw [val_main_v34_apply, val_main_v33_apply, val_main_cst_4_apply, val_main_v32_apply, val_main_v31_apply, val_main_cst_3_apply,
    val_main_v30_apply, val_main_v29_apply, val_main_v28_apply, val_main_v25_apply, val_main_v27_apply, val_main_v26_apply]
  simp only [lidx25, ridx25, idx27, Ideal.hostDivf_def, Ideal.ofBits_def, Ideal.addf_def, Ideal.hostUnary_exp_def,
    Ideal.hostNegf_def, Ideal.negf_def, GinNorm.ofBits_one]
  rfl

/-- The third layer and the rectifier, on the second layer's values. -/
private theorem layer3 (r : Fin 50000) (j : Fin 128) :
    val_main_v43 (F := Ideal) x0 x1 x2 x3 x4 x5 x6 x7 (ix2 r j)
      = GinNorm.lrelu ((∑ k : Fin 64, val_main_v34 (F := Ideal) x0 x1 x2 x3 x4 x5 (ix2 r k) * x6 (ix2 k j)) + x7 (ix1 j)) := by
  rw [val_main_v43_apply, val_main_v40_apply, val_main_v42_apply, val_main_v41_apply, val_main_cst_6_apply, val_main_v39_apply,
    val_main_cst_5_apply, val_main_v38_apply, val_main_v35_apply, val_main_v37_apply, val_main_v36_apply]
  simp only [lidx35, ridx35, idx37, Ideal.ofBits_def, Ideal.addf_def, Ideal.mulf_def, Ideal.cmpf_def]
  rfl

/-- A node's activations are the specification's, over the feature array. -/
private theorem acts_eq (r : Fin 50000) (j : Fin 128) :
    val_main_v43 (F := Ideal) x0 x1 x2 x3 x4 x5 x6 x7 (ix2 r j)
      = GinNorm.acts (val_main_v14 (F := Ideal) x0 x1) x2 x3 x4 x5 x6 x7 r j := by
  rw [layer3]
  simp only [layer2, layer1]
  rfl

/-! ## The column statistics -/

/-- The column mean: the sum over the rows divided by the count. -/
private theorem mean_eq (j : Fin 128) :
    val_main_v46 (F := Ideal) x0 x1 x2 x3 x4 x5 x6 x7 (ix1 j)
      = Ideal.div (∑ r : Fin 50000, GinNorm.acts (val_main_v14 (F := Ideal) x0 x1) x2 x3 x4 x5 x6 x7 r j) GinNorm.nTot := by
  rw [val_main_v46_apply, val_main_v45_apply, val_main_cst_8_apply, val_main_v44_apply, val_main_cst_7_apply]
  simp only [idx44, acts_eq, Ideal.hostDivf_def, Ideal.ofBits_def, Ideal.ofBits_zero_f32, zero_add]
  rfl

/-- An entry's deviation from its column's mean (the program computes it twice; this is the first). -/
private theorem dev_eq (r : Fin 50000) (j : Fin 128) :
    val_main_v49 (F := Ideal) x0 x1 x2 x3 x4 x5 x6 x7 (ix2 r j)
      = GinNorm.acts (val_main_v14 (F := Ideal) x0 x1) x2 x3 x4 x5 x6 x7 r j
        - Ideal.div (∑ r' : Fin 50000, GinNorm.acts (val_main_v14 (F := Ideal) x0 x1) x2 x3 x4 x5 x6 x7 r' j) GinNorm.nTot := by
  rw [val_main_v49_apply, val_main_v48_apply, val_main_v47_apply, idx48, mean_eq, acts_eq, Ideal.subf_def]

/-- The same deviation, as the program computes it the second time. -/
private theorem dev_eq' (r : Fin 50000) (j : Fin 128) :
    val_main_v56 (F := Ideal) x0 x1 x2 x3 x4 x5 x6 x7 (ix2 r j)
      = GinNorm.acts (val_main_v14 (F := Ideal) x0 x1) x2 x3 x4 x5 x6 x7 r j
        - Ideal.div (∑ r' : Fin 50000, GinNorm.acts (val_main_v14 (F := Ideal) x0 x1) x2 x3 x4 x5 x6 x7 r' j) GinNorm.nTot := by
  rw [val_main_v56_apply, val_main_v55_apply, val_main_v54_apply, idx55, mean_eq, acts_eq, Ideal.subf_def]

/-- The column variance: the mean of the squared deviations. -/
private theorem var_eq (j : Fin 128) :
    val_main_v53 (F := Ideal) x0 x1 x2 x3 x4 x5 x6 x7 (ix1 j)
      = Ideal.div (∑ r : Fin 50000,
          (GinNorm.acts (val_main_v14 (F := Ideal) x0 x1) x2 x3 x4 x5 x6 x7 r j
            - Ideal.div (∑ r' : Fin 50000, GinNorm.acts (val_main_v14 (F := Ideal) x0 x1) x2 x3 x4 x5 x6 x7 r' j) GinNorm.nTot)
          * (GinNorm.acts (val_main_v14 (F := Ideal) x0 x1) x2 x3 x4 x5 x6 x7 r j
            - Ideal.div (∑ r' : Fin 50000, GinNorm.acts (val_main_v14 (F := Ideal) x0 x1) x2 x3 x4 x5 x6 x7 r' j) GinNorm.nTot))
          GinNorm.nTot := by
  rw [val_main_v53_apply, val_main_v52_apply, val_main_cst_10_apply, val_main_v51_apply, val_main_cst_9_apply]
  simp only [idx51, val_main_v50_apply, dev_eq, Ideal.hostDivf_def, Ideal.mulf_def, Ideal.ofBits_def, Ideal.ofBits_zero_f32, zero_add]
  rfl

end Stages

/-! ## The result -/

/-- The reference's result is the normalised activations, the variance as the mean squared deviation, over the feature
    array its first operations compute. -/
theorem result_eq (x0 : (⟨S50000x96, .f32⟩ : BufTy).Contents (Elt Ideal)) (x1 : (⟨S2x800000, .i32⟩ : BufTy).Contents (Elt Ideal))
    (x2 : (⟨S96x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S64x128, .f32⟩ : BufTy).Contents (Elt Ideal)) (x7 x8 x9 : (⟨S128, .f32⟩ : BufTy).Contents (Elt Ideal)) :
    val_main_v68 (F := Ideal) x0 x1 x2 x3 x4 x5 x6 x7 x8 x9
      = GinNorm.outRef (val_main_v14 (F := Ideal) x0 x1) x2 x3 x4 x5 x6 x7 x8 x9 := by
  funext i
  obtain ⟨r, j, rfl⟩ : ∃ (r : Fin 50000) (j : Fin 128), i = ix2 r j := ⟨i 0, i 1, eq_ix2 i⟩
  rw [val_main_v68_apply, val_main_v67_apply, val_main_v66_apply, val_main_v65_apply, val_main_v64_apply, val_main_v63_apply,
    val_main_v62_apply, val_main_v61_apply, val_main_v60_apply, val_main_v59_apply, val_main_v58_apply, val_main_v57_apply,
    val_main_cst_11_apply, idx67, idx64, idx61, dev_eq', var_eq]
  simp only [Ideal.addf_def, Ideal.mulf_def, Ideal.hostUnary_rsqrt_def, Ideal.ofBits_def]
  rfl

end Cert.ReferenceIdeal.RefValue

end
-- ==== Proof.PreDecode.lean ====
/-
  What the precondition gives: it is the conjunction, over the nine float arguments, of "every entry's absolute value
  is below +∞". Of these the proof uses two: every entry of the last layer's weight matrix and of its bias is a
  real number.
-/
import proofs.«149962_j74019466379556_1_alg».proof.Pre_finite_inputs
import proofs.«149962_j74019466379556_1_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Decode

open Cert.Pre_finite_inputs Idealize.ShloMosaic

/-- The word 0x7F800000 (sign 0, exponent all ones, fraction 0) denotes +∞. -/
theorem inf_word : Ideal.ofBits .f32 0x7F800000#32 = (⊤ : EReal) := by
  simp [Ideal.ofBits, Ideal.ieee]

/-- An extended real whose absolute value max x (-x) is strictly below +∞ is a real number: at ⊥ and at ⊤ the
    absolute value is ⊤, which is not below itself. -/
theorem real_of_abs_lt (x : EReal)
    (h : Ideal.cmp .olt (max x (-x)) (Ideal.ofBits .f32 0x7F800000#32) = 1#1) : ∃ w : ℝ, x = (w : EReal) := by
  rw [inf_word] at h
  induction x using EReal.rec with
  | bot => simp [Ideal.cmp] at h
  | coe r => exact ⟨r, rfl⟩
  | top => simp [Ideal.cmp] at h

/-- The rank-0 shape has a single index, so a reduction into it is a reduction over every entry. -/
local instance : Subsingleton S_.Idx := ⟨fun a b => funext fun d => d.elim0⟩

/-- Under the precondition the last layer's weights (argument 6) and bias (argument 7) are finite. -/
theorem last_layer_real (x0 : FVec Ideal S50000x96 .f32) (x1 : IVec S2x800000 32) (x2 : FVec Ideal S96x32 .f32) (x3 : FVec Ideal S32 .f32)
    (x4 : FVec Ideal S32x64 .f32) (x5 : FVec Ideal S64 .f32) (x6 : FVec Ideal S64x128 .f32) (x7 x8 x9 : FVec Ideal S128 .f32)
    (h : fn (F := Ideal) x0 x1 x2 x3 x4 x5 x6 x7 x8 x9 = fun _ => 1#1) :
    (∀ i, ∃ w : ℝ, x6 i = (w : EReal)) ∧ (∀ i, ∃ w : ℝ, x7 i = (w : EReal)) := by
  -- the precondition's one output word: the nine tests conjoined from the left
  have e := congrFun h ValueIdx.ix0
  dsimp only [fn, fn_part1, fn_part2] at e
  -- peel the tests of arguments 9 and 8 off the outside; the next two conjuncts are those of arguments 7 and 6
  obtain ⟨e8, -⟩ := IntOp.andi_eq_one.1 e
  obtain ⟨e7, -⟩ := IntOp.andi_eq_one.1 e8
  obtain ⟨e6, h7⟩ := IntOp.andi_eq_one.1 e7
  obtain ⟨-, h6⟩ := IntOp.andi_eq_one.1 e6
  -- a conjunction over all entries that is true is true at each entry: |x i| < +∞ there, so x i is real
  exact ⟨fun i => real_of_abs_lt (x6 i) (Host.reduce_andi_all _ _ _ _ _ h6 i),
    fun i => real_of_abs_lt (x7 i) (Host.reduce_andi_all _ _ _ _ _ h7 i)⟩

end Cert.Pre_finite_inputs.Decode

end
-- ==== Proof.lean ====
/-
  A graph layer on 50000 nodes: each node's features are summed with its in-neighbours', sent through three dense layers
  (the logistic function after the first two, a leaky rectifier after the third) and normalised per column
  (mean off, scaled by 1/√(variance + ε), by γ, shifted by β).

  The kernel does the dense layers tile by tile, 5000 nodes at a grid point, keeping running column sums Σ X and Σ X², and
  in a second pass normalises with the variance Σ X²/n − (Σ X/n)². The reference computes the variance as the mean of the
  squared deviations from the mean. Both start from the same feature array (the same gather, scatter-add and addition,
  never opened here). On the extended reals the two variances agree on a column of finite entries, and the entries are
  finite because the logistic function is bounded and the precondition makes the last layer's weights and bias finite.

  The frames of the two kernel programs are the generated ones; the reference's frame is its generated run with the result
  dropped; no rewrite was made between the kernel and its idealization, so that conjunct is trivial.
-/
import proofs.«149962_j74019466379556_1_alg».proof.Defs
import proofs.«149962_j74019466379556_1_alg».proof.Proof.Gen.Kernel
import proofs.«149962_j74019466379556_1_alg».proof.Proof.Gen.Kernel.Frame
import proofs.«149962_j74019466379556_1_alg».proof.Proof.Gen.KernelIdeal
import proofs.«149962_j74019466379556_1_alg».proof.Proof.Gen.KernelIdeal.Frame
import proofs.«149962_j74019466379556_1_alg».proof.Proof.Gen.ReferenceIdeal
import proofs.«149962_j74019466379556_1_alg».proof.Proof.Gen.ReferenceIdeal.Run
import proofs.«149962_j74019466379556_1_alg».proof.Proof.Gen.ReferenceIdeal.Read
import proofs.«149962_j74019466379556_1_alg».proof.Proof.Gen.Pre_finite_inputs
import proofs.«149962_j74019466379556_1_alg».proof.Proof.Spec
import proofs.«149962_j74019466379556_1_alg».proof.Proof.KernelRun
import proofs.«149962_j74019466379556_1_alg».proof.Proof.KernelValue
import proofs.«149962_j74019466379556_1_alg».proof.Proof.RefValue
import proofs.«149962_j74019466379556_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the result array at the normalised activations: the
    kernel's with each column's variance from its two sums, the reference's from the squared deviations, one array
    because the last layer's weights and bias are finite under the precondition. The second result is the edge list,
    returned as it came. -/
theorem algebraic : Cert.algebraic_KernelIdeal_ReferenceIdeal := by
  intro m ρ m' ρ' hpre hagree
  have hfin := fun c => Cert.Pre_finite_inputs.Decode.last_layer_real _ _ _ _ _ _ _ _ _ _ (hpre c)
  refine ⟨fun c => GinNorm.outKer (Cert.KernelIdeal.Result.feats m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.ValueRun.run_value (F := Ideal) m ρ)
    obtain ⟨hres, h0, h1, h2, h3, h4, h5, h6, h7, h8, h9⟩ := h c
    exact ⟨hres.trans (Cert.KernelIdeal.Result.result_eq m ρ c), h1, h0, h1, h2, h3, h4, h5, h6, h7, h8, h9⟩
  · refine (θ_run Cert.ReferenceIdeal.defs _ _).mono (fun r h c => ?_) (Cert.ReferenceIdeal.Value.run (F := Ideal) m' ρ')
    obtain ⟨hres, hedge, hargs⟩ := h c
    obtain ⟨a0, a1, a2, a3, a4, a5, a6, a7, a8, a9⟩ := hagree c
    refine ⟨hres.trans ?_, hedge.trans a1, hargs⟩
    rw [Cert.ReferenceIdeal.Read.val_main_v68_eq, Cert.ReferenceIdeal.RefValue.result_eq, a0, a1, a2, a3, a4, a5, a6, a7, a8, a9]
    exact (GinNorm.outKer_eq_outRef _ _ _ _ _ _ _ _ _ (hfin c).1 (hfin c).2).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
